-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S50000 : Shape := ⟨1, ![50000]⟩
abbrev S2x300000 : Shape := ⟨2, ![2, 300000]⟩
abbrev S256x256 : Shape := ⟨2, ![256, 256]⟩
abbrev S256 : Shape := ⟨1, ![256]⟩
abbrev S3x256 : Shape := ⟨2, ![3, 256]⟩
abbrev S3 : Shape := ⟨1, ![3]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S3x256 : S_.BroadcastsInDim S3x256 (![] : Fin 0 → Fin S3x256.rank)
  reducesTo_S3x256_S_d0_1 : S3x256.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg6 : FVec F S3 .f32) (main_v13 : IVec S_ 1) (main_v16 : IVec S3x256 1) : IVec S_ 1 :=
  let main_c_5 : IVec S_ 1 := constantI S_ 1 1#1
  let main_v17 : IVec S_ 1 := (fun x v => Host.reduce IntOp.andi x v reducesTo_S3x256_S_d0_1 h_S_) main_v16 main_c_5
  let main_v18 : IVec S_ 1 := andi main_v13 main_v17
  let main_v19 : FVec F S3 .f32 := Host.absf main_arg6
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S100000x256 .f32) (main_arg1 : IVec S50000 32) (main_arg2 : IVec S2x300000 32) (main_arg3 : FVec F S256x256 .f32) (main_arg4 : FVec F S256 .f32) (main_arg5 : FVec F S3x256 .f32) (main_arg6 : FVec F S3 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S3x256 .f32 := Host.absf main_arg5
  let main_cst_4 : FVec F S_ .f32 := constant S_ .f32 0x7F800000#32
  let main_v15 : FVec F S3x256 .f32 := broadcastInDim S3x256 ![] bcast_S_S3x256 main_cst_4
  let main_v16 : IVec S3x256 1 := cmpf .olt main_v14 main_v15
  fn_part1 (F := F) main_arg6 main_v13 main_v16
-- ==== Kernel.lean ====
abbrev S100000x256 : Shape := ⟨2, ![100000, 256]⟩
abbrev S50000 : Shape := ⟨1, ![50000]⟩
abbrev S2x300000 : Shape := ⟨2, ![2, 300000]⟩
abbrev S256x256 : Shape := ⟨2, ![256, 256]⟩
abbrev S256 : Shape := ⟨1, ![256]⟩
abbrev S3x256 : Shape := ⟨2, ![3, 256]⟩
abbrev S3 : Shape := ⟨1, ![3]⟩
abbrev S1x300000 : Shape := ⟨2, ![1, 300000]⟩
abbrev S300000 : Shape := ⟨1, ![300000]⟩
abbrev S_ : Shape := ⟨0, ![]⟩
abbrev S50000x1 : Shape := ⟨2, ![50000, 1]⟩
abbrev S50000x256 : Shape := ⟨2, ![50000, 256]⟩
abbrev S300000x1 : Shape := ⟨2, ![300000, 1]⟩
abbrev S300000x256 : Shape := ⟨2, ![300000, 256]⟩
abbrev S1x256 : Shape := ⟨2, ![1, 256]⟩
abbrev S3x1 : Shape := ⟨2, ![3, 1]⟩
abbrev S3x50000 : Shape := ⟨2, ![3, 50000]⟩
abbrev S50000x3 : Shape := ⟨2, ![50000, 3]⟩
abbrev S2048x256 : Shape := ⟨2, ![2048, 256]⟩
abbrev S2048x1 : Shape := ⟨2, ![2048, 1]⟩
abbrev S3x2048 : Shape := ⟨2, ![3, 2048]⟩
abbrev S2048 : Shape := ⟨1, ![2048]⟩
abbrev S1x2048 : Shape := ⟨2, ![1, 2048]⟩

abbrev nBuf : Space → Nat
  | .hbm => 52
  | .vmem => 12
  | .smem => 0
  | _ => 0

abbrev bufTy : (tb : Table) → Fin (tcTables nBuf tb) → BufTy
  | .hbm, ⟨0, _⟩ => ⟨S100000x256, .f32⟩
  | .hbm, ⟨1, _⟩ => ⟨S50000, .i32⟩
  | .hbm, ⟨2, _⟩ => ⟨S2x300000, .i32⟩
  | .hbm, ⟨3, _⟩ => ⟨S256x256, .f32⟩
  | .hbm, ⟨4, _⟩ => ⟨S256, .f32⟩
  | .hbm, ⟨5, _⟩ => ⟨S3x256, .f32⟩
  | .hbm, ⟨6, _⟩ => ⟨S3, .f32⟩
  | .hbm, ⟨7, _⟩ => ⟨S1x300000, .i32⟩
  | .hbm, ⟨8, _⟩ => ⟨S300000, .i32⟩
  | .hbm, ⟨9, _⟩ => ⟨S1x300000, .i32⟩
  | .hbm, ⟨10, _⟩ => ⟨S300000, .i32⟩
  | .hbm, ⟨11, _⟩ => ⟨S_, .i32⟩
  | .hbm, ⟨12, _⟩ => ⟨S50000, .i32⟩
  | .hbm, ⟨13, _⟩ => ⟨S50000, .i1⟩
  | .hbm, ⟨14, _⟩ => ⟨S_, .i32⟩
  | .hbm, ⟨15, _⟩ => ⟨S50000, .i32⟩
  | .hbm, ⟨16, _⟩ => ⟨S50000, .i32⟩
  | .hbm, ⟨17, _⟩ => ⟨S50000, .i32⟩
  | .hbm, ⟨18, _⟩ => ⟨S50000x1, .i32⟩
  | .hbm, ⟨19, _⟩ => ⟨S50000x256, .f32⟩
  | .hbm, ⟨20, _⟩ => ⟨S_, .i32⟩
  | .hbm, ⟨21, _⟩ => ⟨S300000, .i32⟩
  | .hbm, ⟨22, _⟩ => ⟨S300000, .i1⟩
  | .hbm, ⟨23, _⟩ => ⟨S_, .i32⟩
  | .hbm, ⟨24, _⟩ => ⟨S300000, .i32⟩
  | .hbm, ⟨25, _⟩ => ⟨S300000, .i32⟩
  | .hbm, ⟨26, _⟩ => ⟨S300000, .i32⟩
  | .hbm, ⟨27, _⟩ => ⟨S300000x1, .i32⟩
  | .hbm, ⟨28, _⟩ => ⟨S300000x256, .f32⟩
  | .hbm, ⟨29, _⟩ => ⟨S_, .f32⟩
  | .hbm, ⟨30, _⟩ => ⟨S50000x256, .f32⟩
  | .hbm, ⟨31, _⟩ => ⟨S300000x1, .i32⟩
  | .hbm, ⟨32, _⟩ => ⟨S50000x256, .f32⟩
  | .hbm, ⟨33, _⟩ => ⟨S_, .f32⟩
  | .hbm, ⟨34, _⟩ => ⟨S300000, .f32⟩
  | .hbm, ⟨35, _⟩ => ⟨S_, .f32⟩
  | .hbm, ⟨36, _⟩ => ⟨S50000, .f32⟩
  | .hbm, ⟨37, _⟩ => ⟨S300000x1, .i32⟩
  | .hbm, ⟨38, _⟩ => ⟨S50000, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S50000x1, .f32⟩
  | .hbm, ⟨46, _⟩ => ⟨S256x256, .bf16⟩
  | .hbm, ⟨47, _⟩ => ⟨S3x256, .bf16⟩
  | .hbm, ⟨48, _⟩ => ⟨S1x256, .f32⟩
  | .hbm, ⟨49, _⟩ => ⟨S3x1, .f32⟩
  | .hbm, ⟨50, _⟩ => ⟨S3x50000, .f32⟩
  | .hbm, ⟨51, _⟩ => ⟨S50000x3, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x1, .f32⟩
  | .local _ .vmem, ⟨5, _⟩ => ⟨S2048x1, .f32⟩
  | .local _ .vmem, ⟨6, _⟩ => ⟨S256x256, .bf16⟩
  | .local _ .vmem, ⟨7, _⟩ => ⟨S1x256, .f32⟩
  | .local _ .vmem, ⟨8, _⟩ => ⟨S3x256, .bf16⟩
  | .local _ .vmem, ⟨9, _⟩ => ⟨S3x1, .f32⟩
  | .local _ .vmem, ⟨10, _⟩ => ⟨S3x2048, .f32⟩
  | .local _ .vmem, ⟨11, _⟩ => ⟨S3x2048, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_c : Ref sig .tc := ⟨.hbm, 11, rfl⟩
abbrev main_call0_v4 : Ref sig .tc := ⟨.hbm, 12, rfl⟩
abbrev main_call0_v5 : Ref sig .tc := ⟨.hbm, 13, rfl⟩
abbrev main_call0_c_0 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_c_1 : Ref sig .tc := ⟨.hbm, 20, rfl⟩
abbrev main_call0_v11 : Ref sig .tc := ⟨.hbm, 21, rfl⟩
abbrev main_call0_v12 : Ref sig .tc := ⟨.hbm, 22, rfl⟩
abbrev main_call0_c_2 : Ref sig .tc := ⟨.hbm, 23, rfl⟩
abbrev main_call0_v13 : Ref sig .tc := ⟨.hbm, 24, rfl⟩
abbrev main_call0_v14 : Ref sig .tc := ⟨.hbm, 25, rfl⟩
abbrev main_call0_v15 : Ref sig .tc := ⟨.hbm, 26, rfl⟩
abbrev main_call0_v16 : Ref sig .tc := ⟨.hbm, 27, rfl⟩
abbrev main_call0_v17 : Ref sig .tc := ⟨.hbm, 28, rfl⟩
abbrev main_call0_cst : Ref sig .tc := ⟨.hbm, 29, rfl⟩
abbrev main_call0_v18 : Ref sig .tc := ⟨.hbm, 30, rfl⟩
abbrev main_call0_v19 : Ref sig .tc := ⟨.hbm, 31, rfl⟩
abbrev main_call0_v20 : Ref sig .tc := ⟨.hbm, 32, rfl⟩
abbrev main_call0_cst_3 : Ref sig .tc := ⟨.hbm, 33, rfl⟩
abbrev main_call0_v21 : Ref sig .tc := ⟨.hbm, 34, rfl⟩
abbrev main_call0_cst_4 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_cst_5 : Ref sig .tc := ⟨.hbm, 39, rfl⟩
abbrev main_call0_v25 : Ref sig .tc := ⟨.hbm, 40, rfl⟩
abbrev main_call0_v26 : Ref sig .tc := ⟨.hbm, 41, rfl⟩
abbrev main_call0_cst_6 : Ref sig .tc := ⟨.hbm, 42, rfl⟩
abbrev main_call0_v27 : Ref sig .tc := ⟨.hbm, 43, rfl⟩
abbrev main_call0_v28 : Ref sig .tc := ⟨.hbm, 44, rfl⟩
abbrev main_call0_v29 : Ref sig .tc := ⟨.hbm, 45, rfl⟩
abbrev main_call0_v30 : Ref sig .tc := ⟨.hbm, 46, rfl⟩
abbrev main_call0_v31 : Ref sig .tc := ⟨.hbm, 47, rfl⟩
abbrev main_call0_v32 : Ref sig .tc := ⟨.hbm, 48, rfl⟩
abbrev main_call0_v33 : Ref sig .tc := ⟨.hbm, 49, rfl⟩
abbrev main_call0_v34 : Ref sig .tc := ⟨.hbm, 50, rfl⟩
abbrev main_v0 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S50000 : S_.BroadcastsInDim S50000 (![] : Fin 0 → Fin S50000.rank)
  bcast_S50000_S50000x1_0 : S50000.BroadcastsInDim S50000x1 (![0] : Fin 1 → Fin S50000x1.rank)
  bcast_S_S300000 : S_.BroadcastsInDim S300000 (![] : Fin 0 → Fin S300000.rank)
  bcast_S300000_S300000x1_0 : S300000.BroadcastsInDim S300000x1 (![0] : Fin 1 → Fin S300000x1.rank)
  bcast_S_S50000x256 : S_.BroadcastsInDim S50000x256 (![] : Fin 0 → Fin S50000x256.rank)
  shapeCasts_S50000_S50000x1 : S50000.ShapeCasts S50000x1
  bitsLt_bf16_f32 : FTy.bits .bf16 < FTy.bits .f32
  shapeCasts_S256_S1x256 : S256.ShapeCasts S1x256
  shapeCasts_S3_S3x1 : S3.ShapeCasts S3x1
  transposes_S3x50000_S50000x3_1_0 : S3x50000.Transposes [1, 0] S50000x3
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x256 : S2048x1.Broadcasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S3x256_S3x256_0_0 : ∀ a, (![0, 0] : Fin 2 → Nat) a + S3x256.size a ≤ S3x256.size a
  h_S3x256 : 0 < S3x256.numel
  shapeCasts_S3x256_S3x256 : S3x256.ShapeCasts S3x256
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x2048 : S3x1.Broadcasts S3x2048
  reduces_S3x2048_S2048 : S3x2048.Reduces [0] S2048
  shapeCasts_S2048_S1x2048 : S2048.ShapeCasts S1x2048
  broadcasts_S1x2048_S3x2048 : S1x2048.Broadcasts S3x2048
  inb_S3x2048_S3x2048_0_0 : ∀ a, (![0, 0] : Fin 2 → Nat) a + S3x2048.size a ≤ S3x2048.size a
  h_S3x2048 : 0 < S3x2048.numel
  gather_S100000x256_S50000x1_S50000x256_1_0_n_n_0_1_1256_wf : GatherDims.WF S100000x256 S50000x1 S50000x256 [1] [0] [] [0] [] 1 ![1, 256]
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  scatter_S50000_S300000x1_S300000_n_0_0_1_wf : ScatterDims.WF S50000 S300000x1 S300000 [] [0] [0] 1
  dot_S2048x256_S256x256_S2048x256_1_0_0_1_n_n_wf : DotDims.WF S2048x256 S256x256 S2048x256 [1] [0] [0] [1] [] []
  dot_S3x256_S2048x256_S3x2048_1_1_0_0_n_n_wf : DotDims.WF S3x256 S2048x256 S3x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2048x256.size a < S50000x256.size a
  hwx0_0 : ∀ i : grid0.Coords, EltTy.bits .f32 = 32 ∨ (Rect.unit (s := S50000x256) (fun a => cc0_transform_0 i a * S2048x256.size a) (fun a => (Pipeline.Clip.of (cc0_transform_0 i a) (S2048x256.size a) (S50000x256.size a)).extent (S2048x256.size a)) fun a => Pipeline.Clip.inb (Pipeline.Clip.ok_of (hstart0_0 i a))).WholeWords (EltTy.packing .f32)
  hwxs0_0 : ∀ i : grid0.Coords, EltTy.bits .f32 = 32 ∨ (Rect.unit (s := S2048x256) (fun _ => 0) (fun a => (Pipeline.Clip.of (cc0_transform_0 i a) (S2048x256.size a) (S50000x256.size a)).extent (S2048x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x256.size a < S50000x256.size a
  hwx0_1 : ∀ i : grid0.Coords, EltTy.bits .f32 = 32 ∨ (Rect.unit (s := S50000x256) (fun a => cc0_transform_1 i a * S2048x256.size a) (fun a => (Pipeline.Clip.of (cc0_transform_1 i a) (S2048x256.size a) (S50000x256.size a)).extent (S2048x256.size a)) fun a => Pipeline.Clip.inb (Pipeline.Clip.ok_of (hstart0_1 i a))).WholeWords (EltTy.packing .f32)
  hwxs0_1 : ∀ i : grid0.Coords, EltTy.bits .f32 = 32 ∨ (Rect.unit (s := S2048x256) (fun _ => 0) (fun a => (Pipeline.Clip.of (cc0_transform_1 i a) (S2048x256.size a) (S50000x256.size a)).extent (S2048x256.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2048x1.size a < S50000x1.size a
  hwx0_2 : ∀ i : grid0.Coords, EltTy.bits .f32 = 32 ∨ (Rect.unit (s := S50000x1) (fun a => cc0_transform_2 i a * S2048x1.size a) (fun a => (Pipeline.Clip.of (cc0_transform_2 i a) (S2048x1.size a) (S50000x1.size a)).extent (S2048x1.size a)) fun a => Pipeline.Clip.inb (Pipeline.Clip.ok_of (hstart0_2 i a))).WholeWords (EltTy.packing .f32)
  hwxs0_2 : ∀ i : grid0.Coords, EltTy.bits .f32 = 32 ∨ (Rect.unit (s := S2048x1) (fun _ => 0) (fun a => (Pipeline.Clip.of (cc0_transform_2 i a) (S2048x1.size a) (S50000x1.size a)).extent (S2048x1.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x256.size a ≤ S3x256.size a
  hwx0_5 : ∀ i : grid0.Coords, EltTy.bits .bf16 = 32 ∨ (Rect.block (s := S3x256) S3x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x1.size a ≤ S3x1.size a
  hwx0_6 : ∀ i : grid0.Coords, EltTy.bits .f32 = 32 ∨ (Rect.block (s := S3x1) S3x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hstart0_7 : ∀ (i : grid0.Coords) a, cc0_transform_7 i a * S3x2048.size a < S3x50000.size a
  hwx0_7 : ∀ i : grid0.Coords, EltTy.bits .f32 = 32 ∨ (Rect.unit (s := S3x50000) (fun a => cc0_transform_7 i a * S3x2048.size a) (fun a => (Pipeline.Clip.of (cc0_transform_7 i a) (S3x2048.size a) (S3x50000.size a)).extent (S3x2048.size a)) fun a => Pipeline.Clip.inb (Pipeline.Clip.ok_of (hstart0_7 i a))).WholeWords (EltTy.packing .f32)
  hwxs0_7 : ∀ i : grid0.Coords, EltTy.bits .f32 = 32 ∨ (Rect.unit (s := S3x2048) (fun _ => 0) (fun a => (Pipeline.Clip.of (cc0_transform_7 i a) (S3x2048.size a) (S3x50000.size a)).extent (S3x2048.size a)) fun a => (Nat.zero_add _).trans_le (Pipeline.Clip.extent_le (Pipeline.Clip.ok_of (hstart0_7 i a)))).WholeWords (EltTy.packing .f32)

variable [Facts₀]

def gather_S100000x256_S50000x1_S50000x256_1_0_n_n_0_1_1256 : GatherDims S100000x256 S50000x1 S50000x256 where
  offsetDims := [1]
  collapsedSliceDims := [0]
  operandBatchingDims := []
  startIndicesBatchingDims := []
  startIndexMap := [0]
  indexVectorDim := 1
  sliceSizes := ![1, 256]
  wf := gather_S100000x256_S50000x1_S50000x256_1_0_n_n_0_1_1256_wf
def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S3x256_S2048x256_S3x2048_1_1_0_0_n_n : DotDims S3x256 S2048x256 S3x2048 where
  lhsContracting := [1]
  rhsContracting := [1]
  lhsNonContracting := [0]
  rhsNonContracting := [0]
  lhsBatch := []
  rhsBatch := []
  wf := dot_S3x256_S2048x256_S3x2048_1_1_0_0_n_n_wf

abbrev win0_0 : Pipeline.Window sig grid0 :=
  Pipeline.Window.ofSpecClip (Memref.whole main_call0_v20) S2048x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_call0_v10) S2048x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_call0_v29) S2048x1.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_call0_v30) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v32) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v31) S3x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v33) S3x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpecClip (Memref.whole main_call0_v34) S3x2048.size cc0_transform_7 reads0_7 true false 2 stage0_7 sem0_7
    hrank0 hreads0_7 hstart0_7 nbuf0_7 (Memref.isWhole_whole _) hwx0_7 hwxs0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x256 : Shape := ⟨2, ![100000, 256]⟩
abbrev S50000 : Shape := ⟨1, ![50000]⟩
abbrev S2x300000 : Shape := ⟨2, ![2, 300000]⟩
abbrev S256x256 : Shape := ⟨2, ![256, 256]⟩
abbrev S256 : Shape := ⟨1, ![256]⟩
abbrev S3x256 : Shape := ⟨2, ![3, 256]⟩
abbrev S3 : Shape := ⟨1, ![3]⟩
abbrev S_ : Shape := ⟨0, ![]⟩
abbrev S50000x1 : Shape := ⟨2, ![50000, 1]⟩
abbrev S50000x256 : Shape := ⟨2, ![50000, 256]⟩
abbrev S1x300000 : Shape := ⟨2, ![1, 300000]⟩
abbrev S300000 : Shape := ⟨1, ![300000]⟩
abbrev S300000x1 : Shape := ⟨2, ![300000, 1]⟩
abbrev S300000x256 : Shape := ⟨2, ![300000, 256]⟩
abbrev S1x256 : Shape := ⟨2, ![1, 256]⟩
abbrev S256x3 : Shape := ⟨2, ![256, 3]⟩
abbrev S50000x3 : Shape := ⟨2, ![50000, 3]⟩
abbrev S1x3 : Shape := ⟨2, ![1, 3]⟩

abbrev nBuf : Space → Nat
  | .hbm => 70
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S50000, .i32⟩
  | .hbm, ⟨2, _⟩ => ⟨S2x300000, .i32⟩
  | .hbm, ⟨3, _⟩ => ⟨S256x256, .f32⟩
  | .hbm, ⟨4, _⟩ => ⟨S256, .f32⟩
  | .hbm, ⟨5, _⟩ => ⟨S3x256, .f32⟩
  | .hbm, ⟨6, _⟩ => ⟨S3, .f32⟩
  | .hbm, ⟨7, _⟩ => ⟨S_, .i32⟩
  | .hbm, ⟨8, _⟩ => ⟨S50000, .i32⟩
  | .hbm, ⟨9, _⟩ => ⟨S50000, .i1⟩
  | .hbm, ⟨10, _⟩ => ⟨S_, .i32⟩
  | .hbm, ⟨11, _⟩ => ⟨S50000, .i32⟩
  | .hbm, ⟨12, _⟩ => ⟨S50000, .i32⟩
  | .hbm, ⟨13, _⟩ => ⟨S50000, .i32⟩
  | .hbm, ⟨14, _⟩ => ⟨S50000x1, .i32⟩
  | .hbm, ⟨15, _⟩ => ⟨S50000x256, .f32⟩
  | .hbm, ⟨16, _⟩ => ⟨S1x300000, .i32⟩
  | .hbm, ⟨17, _⟩ => ⟨S300000, .i32⟩
  | .hbm, ⟨18, _⟩ => ⟨S1x300000, .i32⟩
  | .hbm, ⟨19, _⟩ => ⟨S300000, .i32⟩
  | .hbm, ⟨20, _⟩ => ⟨S_, .i32⟩
  | .hbm, ⟨21, _⟩ => ⟨S300000, .i32⟩
  | .hbm, ⟨22, _⟩ => ⟨S300000, .i1⟩
  | .hbm, ⟨23, _⟩ => ⟨S_, .i32⟩
  | .hbm, ⟨24, _⟩ => ⟨S300000, .i32⟩
  | .hbm, ⟨25, _⟩ => ⟨S300000, .i32⟩
  | .hbm, ⟨26, _⟩ => ⟨S300000, .i32⟩
  | .hbm, ⟨27, _⟩ => ⟨S300000x1, .i32⟩
  | .hbm, ⟨28, _⟩ => ⟨S300000x256, .f32⟩
  | .hbm, ⟨29, _⟩ => ⟨S_, .f32⟩
  | .hbm, ⟨30, _⟩ => ⟨S50000x256, .f32⟩
  | .hbm, ⟨31, _⟩ => ⟨S300000x1, .i32⟩
  | .hbm, ⟨32, _⟩ => ⟨S50000x256, .f32⟩
  | .hbm, ⟨33, _⟩ => ⟨S50000x256, .f32⟩
  | .hbm, ⟨34, _⟩ => ⟨S_, .f32⟩
  | .hbm, ⟨35, _⟩ => ⟨S300000, .f32⟩
  | .hbm, ⟨36, _⟩ => ⟨S_, .f32⟩
  | .hbm, ⟨37, _⟩ => ⟨S50000, .f32⟩
  | .hbm, ⟨38, _⟩ => ⟨S300000x1, .i32⟩
  | .hbm, ⟨39, _⟩ => ⟨S50000, .f32⟩
  | .hbm, ⟨40, _⟩ => ⟨S_, .f32⟩
  | .hbm, ⟨41, _⟩ => ⟨S50000, .f32⟩
  | .hbm, ⟨42, _⟩ => ⟨S50000, .f32⟩
  | .hbm, ⟨43, _⟩ => ⟨S50000x1, .f32⟩
  | .hbm, ⟨44, _⟩ => ⟨S50000x256, .f32⟩
  | .hbm, ⟨45, _⟩ => ⟨S50000x256, .f32⟩
  | .hbm, ⟨46, _⟩ => ⟨S50000x256, .f32⟩
  | .hbm, ⟨47, _⟩ => ⟨S1x256, .f32⟩
  | .hbm, ⟨48, _⟩ => ⟨S50000x256, .f32⟩
  | .hbm, ⟨49, _⟩ => ⟨S50000x256, .f32⟩
  | .hbm, ⟨50, _⟩ => ⟨S256x3, .f32⟩
  | .hbm, ⟨51, _⟩ => ⟨S50000x3, .f32⟩
  | .hbm, ⟨52, _⟩ => ⟨S1x3, .f32⟩
  | .hbm, ⟨53, _⟩ => ⟨S50000x3, .f32⟩
  | .hbm, ⟨54, _⟩ => ⟨S50000x3, .f32⟩
  | .hbm, ⟨55, _⟩ => ⟨S_, .f32⟩
  | .hbm, ⟨56, _⟩ => ⟨S50000, .f32⟩
  | .hbm, ⟨57, _⟩ => ⟨S_, .f32⟩
  | .hbm, ⟨58, _⟩ => ⟨S50000, .f32⟩
  | .hbm, ⟨59, _⟩ => ⟨S50000, .f32⟩
  | .hbm, ⟨60, _⟩ => ⟨S50000x1, .f32⟩
  | .hbm, ⟨61, _⟩ => ⟨S50000x3, .f32⟩
  | .hbm, ⟨62, _⟩ => ⟨S50000x3, .f32⟩
  | .hbm, ⟨63, _⟩ => ⟨S50000x3, .f32⟩
  | .hbm, ⟨64, _⟩ => ⟨S_, .f32⟩
  | .hbm, ⟨65, _⟩ => ⟨S50000, .f32⟩
  | .hbm, ⟨66, _⟩ => ⟨S50000x1, .f32⟩
  | .hbm, ⟨67, _⟩ => ⟨S50000x1, .f32⟩
  | .hbm, ⟨68, _⟩ => ⟨S50000x3, .f32⟩
  | .hbm, ⟨69, _⟩ => ⟨S50000x3, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call0_cst : Ref sig .tc := ⟨.hbm, 55, rfl⟩
abbrev main_call0_v0 : Ref sig .tc := ⟨.hbm, 56, rfl⟩
abbrev main_call0_cst_0 : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_v5 : Ref sig .tc := ⟨.hbm, 62, rfl⟩
abbrev main_call0_v6 : Ref sig .tc := ⟨.hbm, 63, rfl⟩
abbrev main_call0_cst_1 : Ref sig .tc := ⟨.hbm, 64, rfl⟩
abbrev main_call0_v7 : Ref sig .tc := ⟨.hbm, 65, rfl⟩
abbrev main_call0_v8 : Ref sig .tc := ⟨.hbm, 66, rfl⟩
abbrev main_call0_v9 : Ref sig .tc := ⟨.hbm, 67, rfl⟩
abbrev main_call0_v10 : Ref sig .tc := ⟨.hbm, 68, rfl⟩
abbrev main_v40 : Ref sig .tc := ⟨.hbm, 69, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  transposes_S3x256_S256x3_1_0 : S3x256.Transposes [1, 0] S256x3
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  reducesTo_S50000x3_S50000_d1 : S50000x3.ReducesTo [1] S50000
  h_S_ : 0 < S_.numel
  bcast_S50000x1_S50000x3_0_1 : S50000x1.BroadcastsInDim S50000x3 (![0, 1] : Fin 2 → Fin S50000x3.rank)
  gather_S100000x256_S50000x1_S50000x256_1_0_n_n_0_1_1256_wf : GatherDims.WF S100000x256 S50000x1 S50000x256 [1] [0] [] [0] [] 1 ![1, 256]
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  scatter_S50000_S300000x1_S300000_n_0_0_1_wf : ScatterDims.WF S50000 S300000x1 S300000 [] [0] [0] 1
  dot_S50000x256_S256x256_S50000x256_1_0_0_1_n_n_wf : DotDims.WF S50000x256 S256x256 S50000x256 [1] [0] [0] [1] [] []
  dot_S50000x256_S256x3_S50000x3_1_0_0_1_n_n_wf : DotDims.WF S50000x256 S256x3 S50000x3 [1] [0] [0] [1] [] []

variable [Facts₀]

def gather_S100000x256_S50000x1_S50000x256_1_0_n_n_0_1_1256 : GatherDims S100000x256 S50000x1 S50000x256 where
  offsetDims := [1]
  collapsedSliceDims := [0]
  operandBatchingDims := []
  startIndicesBatchingDims := []
  startIndexMap := [0]
  indexVectorDim := 1
  sliceSizes := ![1, 256]
  wf := gather_S100000x256_S50000x1_S50000x256_1_0_n_n_0_1_1256_wf
def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def scatter_S50000_S300000x1_S300000_n_0_0_1 : ScatterDims S50000 S300000x1 S300000 where
  updateWindowDims := []
  insertedWindowDims := [0]
  scatterDimsToOperandDims := [0]
  indexVectorDim := 1
  wf := scatter_S50000_S300000x1_S300000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x3_S50000x3_1_0_0_1_n_n : DotDims S50000x256 S256x3 S50000x3 where
  lhsContracting := [1]
  rhsContracting := [0]
  lhsNonContracting := [0]
  rhsNonContracting := [1]
  lhsBatch := []
  rhsBatch := []
  wf := dot_S50000x256_S256x3_S50000x3_1_0_0_1_n_n_wf

class Facts : Prop extends Facts₀ where

variable [Facts]
-- ==== Proof.BodyRunBits.lean ====
/-
  The kernel body on whole staging buffers, at any float instance: seven loads of whole buffers, one value computed
  from them, one store of a whole buffer. From the seven input buffers at contents x0 … x6 and the output buffer at
  anything, the body runs to the same input buffers unchanged and the output buffer at the body's value of x0 … x6
  (`outBlk`, which is the named payload of the whole blocks: `outBlk_eq`).
-/
import proofs.«408551_j67293547593882_3_alg».proof.Proof.Gen.Kernel.Frame
import proofs.«408551_j67293547593882_3_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every one the whole buffer -/

abbrev rA : Rect S2048x256 := Rect.unit (s := S2048x256) ![0, 0] S2048x256.size inb_S2048x256_S2048x256_0_0
abbrev rR : Rect S2048x1 := Rect.unit (s := S2048x1) ![0, 0] S2048x1.size inb_S2048x1_S2048x1_0_0
abbrev rW : Rect S256x256 := Rect.unit (s := S256x256) ![0, 0] S256x256.size inb_S256x256_S256x256_0_0
abbrev rB : Rect S1x256 := Rect.unit (s := S1x256) ![0, 0] S1x256.size inb_S1x256_S1x256_0_0
abbrev rC : Rect S3x256 := Rect.unit (s := S3x256) ![0, 0] S3x256.size inb_S3x256_S3x256_0_0
abbrev rD : Rect S3x1 := Rect.unit (s := S3x1) ![0, 0] S3x1.size inb_S3x1_S3x1_0_0
abbrev rO : Rect S3x2048 := Rect.unit (s := S3x2048) ![0, 0] S3x2048.size inb_S3x2048_S3x2048_0_0

/-- What the body leaves in the output buffer: its one store, of the payload of the seven loaded blocks. -/
def outBlk (x0 x1 : Vec F S2048x256 .f32) (x2 : Vec F S2048x1 .f32) (x3 : Vec F S256x256 .bf16) (x4 : Vec F S1x256 .f32)
    (x5 : Vec F S3x256 .bf16) (x6 : Vec F S3x1 .f32) : Vec F S3x2048 .f32 :=
  View.canon [⟨rO, k0_pay1 (View.ld x0 rA) (View.ld x1 rA) (View.ld x2 rR) (View.ld x3 rW) (View.ld x4 rB) (View.ld x5 rC) (View.ld x6 rD)⟩]

/-- The store covers the buffer. -/
theorem coverO (p0 : Vec F S3x2048 .f32) (y : S3x2048.Idx) :
    ∃ pc ∈ ([⟨rO, p0⟩] : List (View.Piece (Elt F) S3x2048 .f32)), y ∈ pc.1.set :=
  View.cover_of_tiled [⟨rO, p0⟩] S3x2048.size (by rfl) y

theorem hz2 : (![0, 0] : Fin 2 → Nat) = fun _ => 0 := funext fun a => by fin_cases a <;> rfl

/-- Every access being the whole buffer, what the body leaves is the payload of the blocks themselves. -/
theorem outBlk_eq (x0 x1 : Vec F S2048x256 .f32) (x2 : Vec F S2048x1 .f32) (x3 : Vec F S256x256 .bf16) (x4 : Vec F S1x256 .f32)
    (x5 : Vec F S3x256 .bf16) (x6 : Vec F S3x1 .f32) :
    outBlk x0 x1 x2 x3 x4 x5 x6 = k0_pay1 x0 x1 x2 x3 x4 x5 x6 := by
  unfold outBlk
  rw [View.canon_unit_zero hz2]
  simp only [View.ld_unit_zero (S := S2048x256) hz2, View.ld_unit_zero (S := S2048x1) hz2, View.ld_unit_zero (S := S256x256) hz2,
    View.ld_unit_zero (S := S1x256) hz2, View.ld_unit_zero (S := S3x256) hz2, View.ld_unit_zero (S := S3x1) hz2]

set_option maxHeartbeats 4000000 in
/-- The body's triple. -/
theorem sound_kernel (c : Dev nD) (E : Set ℕ) (i : grid0.Coords)
    (arg1 : Memref sig .tc .vmem S2048x256 .f32) (harg1 : arg1.IsWhole) (arg2 : Memref sig .tc .vmem S2048x256 .f32) (harg2 : arg2.IsWhole)
    (arg3 : Memref sig .tc .vmem S2048x1 .f32) (harg3 : arg3.IsWhole) (arg4 : Memref sig .tc .vmem S256x256 .bf16) (harg4 : arg4.IsWhole)
    (arg5 : Memref sig .tc .vmem S1x256 .f32) (harg5 : arg5.IsWhole) (arg6 : Memref sig .tc .vmem S3x256 .bf16) (harg6 : arg6.IsWhole)
    (arg7 : Memref sig .tc .vmem S3x1 .f32) (harg7 : arg7.IsWhole) (arg8 : Memref sig .tc .vmem S3x2048 .f32) (harg8 : arg8.IsWhole)
    (x0 x1 : Vec F S2048x256 .f32) (x2 : Vec F S2048x1 .f32) (x3 : Vec F S256x256 .bf16) (x4 : Vec F S1x256 .f32)
    (x5 : Vec F S3x256 .bf16) (x6 : Vec F S3x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (outBlk x0 x1 x2 x3 x4 x5 x6)) -∗ K ⟨⟩))
      ⊢ wp frame (wpE (defs₀ (F := F)) Variants.none c none) E
          (cc0__sage_classify_kernel i arg1 harg1 arg2 harg2 arg3 harg3 arg4 harg4 arg5 harg5 arg6 harg6 arg7 harg7 arg8 harg8) K := by
  simp only [cc0__sage_classify_kernel_eq_skeleton]; unfold cc0__sage_classify_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverO _)

end Cert.Kernel.Body

end
-- ==== Proof.FrameBits.lean ====
/-
  The word-level kernel's frame: it runs to the end, faults nowhere and leaves its argument arrays as they were.

  The region is one pipeline of eight windows over 25 points. Windows 0, 1, 2 (inputs) and 7 (the output) have a last
  block that overhangs its array: a fetch of such a block lands only the rows inside the array, and what the staging
  buffer holds past them is named by nothing. So the proof data states those inputs' buffers only on the rows the
  transfers move (the block there, any filler elsewhere), and says NOTHING of the output's buffer: what the body
  leaves in it depends on the unnamed rows of its inputs, and the frame claim does not read it. Windows 3 to 6 are
  whole small arrays fetched once; their buffers hold their blocks at every point.

  From the body's triple on whole buffers the body obligation follows at every point; the pipeline's frame run then
  says that every unscoped buffer which is no window's array and which the host line after the region does not write
  ends at its contents at the region's entry. The seven argument arrays are such buffers, and no host line before the
  region writes them.
-/
import proofs.«408551_j67293547593882_3_alg».proof.Proof.BodyRunBits

set_option maxRecDepth 16384

noncomputable section

namespace Cert.Kernel.FrameBits

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable (m : (ℓ : Loc nD τ sig) → Buf (Elt F) ℓ) (ρ : Dev nD → PrngReg)

local notation "𝕄" => MT nD τ sig Unit (Elt F) ℕ (UR sig nD τ) ℕ

/-! ## The proof data -/

/-- The proof data of the pipeline on core `c`: the arrays as the region finds them; after the body at point `t` the three
    overhanging inputs' buffers at their blocks on the rows inside the array (the zero word past them: a filler no
    obligation reads), the four whole inputs' buffers at their blocks, the output's buffer at a filler (the window is
    forgotten: nothing is stated of it); the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .f32 0#32) (iblk m c 1 t)
    | ⟨2, _⟩ => win0_2.fill (grid0.coords t) (fun _ => Scalar.ofBits .f32 0#32) (iblk m c 2 t)
    | ⟨3, _⟩ => iblk m c 3 t
    | ⟨4, _⟩ => iblk m c 4 t
    | ⟨5, _⟩ => iblk m c 5 t
    | ⟨6, _⟩ => iblk m c 6 t
    | ⟨7, _⟩ => fun _ => Scalar.ofBits .f32 0#32
  Φ _ := Pipeline.ΦA spec0 c
  q _ := fullShare
  owed _ := 0

/-- The one forgotten window: the output. -/
def fgt : Fin cfg0.W → Bool :=
  fun | 0 => false | 1 => false | 2 => false | 3 => false | 4 => false | 5 => false | 6 => false | 7 => true
      | ⟨_ + 8, h⟩ => absurd h (Nat.not_lt.2 (Nat.le_add_left _ _))

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) :
    (dats m 0 c).after 0 t = win0_0.fill (grid0.coords t) (fun _ => Scalar.ofBits .f32 0#32) (iblk m c 0 t) := by dsimp only [dats]
theorem after0_1 (c : Dev nD) (t : Fin cfg0.N) :
    (dats m 0 c).after 1 t = win0_1.fill (grid0.coords t) (fun _ => Scalar.ofBits .f32 0#32) (iblk m c 1 t) := by dsimp only [dats]
theorem after0_2 (c : Dev nD) (t : Fin cfg0.N) :
    (dats m 0 c).after 2 t = win0_2.fill (grid0.coords t) (fun _ => Scalar.ofBits .f32 0#32) (iblk m c 2 t) := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-! ## What the body finds -/

/-- An overhanging input is fetched at every point: its buffer holds the block on the rows inside the array and,
    past them, whatever `d` the overwrite before the fetch left. -/
theorem before0_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]
theorem before0_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
theorem before0_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]

/-- A whole input's buffer holds its block at every point, fetched there or not. -/
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`: the seven inputs' buffers at what they then hold, the output's at
    anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X))

/-- What it returns: an overhanging input's buffer stated on the rows its transfers move, a whole input's at its
    block, the output's at anything. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, owns (c : Thread nD τ) (st0_7 t) fullShare X))

/-- The body at any point. The body only loads its inputs, so each input's buffer comes back as it went in: an
    overhanging one at its block filled out with the same `d`, which on the rows inside the array is what the data
    names (cutting a filled block gives the block back); a whole one at its block. The output's buffer comes back at
    the body's value, of which nothing is asked. The invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6,
    win0_0.cut_fill, win0_1.cut_fill, win0_2.cut_fill]
  iintro ⟨HΦ, Ho, ⟨%d0, H0⟩, ⟨%d1, H1⟩, ⟨%d2, H2⟩, ⟨%d3, H3⟩, ⟨%d4, H4⟩, ⟨%d5, H5⟩, ⟨%d6, H6⟩, ⟨%X7, H7⟩⟩
  iapply (Cert.Kernel.Body.sound_kernel c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_0.fill (grid0.coords t) d0 (iblk m c 0 t)) (win0_1.fill (grid0.coords t) d1 (iblk m c 1 t))
    (win0_2.fill (grid0.coords t) d2 (iblk m c 2 t)) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists X7; iexact H7
  iintro ⟨H0, H1, H2, H3, H4, H5, H6, H7⟩
  isplitl [HΦ]; · iexact HΦ
  isplitl [Ho]; · iexact Ho
  isplitl [H0]; · iexists d0; iexact H0
  isplitl [H1]; · iexists d1; iexact H1
  isplitl [H2]; · iexists d2; iexact H2
  isplitl [H3]; · iexact H3
  isplitl [H4]; · iexact H4
  isplitl [H5]; · iexact H5
  isplitl [H6]; · iexact H6
  iexists _; iexact H7

/-- The library's body obligation, at every point, the output window forgotten. -/
theorem body_obligation (c : Dev nD) :
    BodyObligationLoose (dats (F := F) m 0 c) (defs₀ (F := F)) Variants.none () Set.univ fgt := fun t => by
  rw [bigSep_W0, bigSep_W0]
  exact sound_body m c t

/-! ## The run and the frame -/

/-- The buffers the host line after the region writes: its one result. -/
def T : Finset (Ref sig .tc) := {main_v0}

/-- The line after the region (a transpose of the output array) writes its result buffer only. -/
theorem tail_writes : ∀ ops ∈ ([hostOps1] : List (List (HloOp τ sig (Elt F)))), ∀ op ∈ ops,
    ∀ b : Ref sig .tc, Proc.devRef .tc b ∈ op.writes → b ∈ T := by
  intro ops hops op hop b hb
  simp only [List.mem_cons, List.mem_nil_iff, or_false] at hops
  rcases hops with rfl
  simp only [hostOps1, List.mem_cons, List.mem_nil_iff, or_false] at hop
  rcases hop with rfl
  simp only [StableHlo.unary_writes, Finset.mem_singleton] at hb
  exact Finset.mem_singleton.mpr (Proc.devRef_injective _ hb)

set_option backward.isDefEq.respectTransparency.types false in
/-- At the compiled mesh, for any values, from any memory with zero counters: every weakly fair execution of @main on
    the TensorCores terminates, and in every final state every input array of the pipeline is unchanged, nothing is
    stated of the forgotten output's array, and every other unscoped buffer that the line after the region does not
    write holds its contents at the region's entry. -/
theorem run_main : θ_run defs (onTc (τ := τ) (main (F := F))) (s₀ m ρ)
    (Pipeline.RDat.FramePostR (cfgs 0) (fun c => (dats m 0 c).toRForget fgt) T (V m)) :=
  Pipeline.RDat.θ_run_frame_around_T cfgs (0 : Fin 1) launch0 defs₀ Variants.none (fun c => (dats m 0 c).toRForget fgt) T m ρ main
    (hbody := fun c => (body_obligation m c).toRForget) (hshare := fun c => ((dats m 0 c).toRForget fgt).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- An argument array is no result of the line after the region. -/
theorem arg_not_tail {b : Ref sig .tc} (h : b ≠ main_v0) : b ∉ T := fun hb => h (Finset.mem_singleton.mp hb)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Finset.mem_sdiff.mpr ⟨Pipeline.mem_restRefs_of main_arg0 (by decide) (by decide), arg_not_tail (by decide)⟩)).trans (V_main_arg0 m c),
      ((h c).2 main_arg1 (Finset.mem_sdiff.mpr ⟨Pipeline.mem_restRefs_of main_arg1 (by decide) (by decide), arg_not_tail (by decide)⟩)).trans (V_main_arg1 m c),
      ((h c).2 main_arg2 (Finset.mem_sdiff.mpr ⟨Pipeline.mem_restRefs_of main_arg2 (by decide) (by decide), arg_not_tail (by decide)⟩)).trans (V_main_arg2 m c),
      ((h c).2 main_arg3 (Finset.mem_sdiff.mpr ⟨Pipeline.mem_restRefs_of main_arg3 (by decide) (by decide), arg_not_tail (by decide)⟩)).trans (V_main_arg3 m c),
      ((h c).2 main_arg4 (Finset.mem_sdiff.mpr ⟨Pipeline.mem_restRefs_of main_arg4 (by decide) (by decide), arg_not_tail (by decide)⟩)).trans (V_main_arg4 m c),
      ((h c).2 main_arg5 (Finset.mem_sdiff.mpr ⟨Pipeline.mem_restRefs_of main_arg5 (by decide) (by decide), arg_not_tail (by decide)⟩)).trans (V_main_arg5 m c),
      ((h c).2 main_arg6 (Finset.mem_sdiff.mpr ⟨Pipeline.mem_restRefs_of main_arg6 (by decide) (by decide), arg_not_tail (by decide)⟩)).trans (V_main_arg6 m c)⟩)
    (run_main m ρ)

end Cert.Kernel.FrameBits

end
-- ==== Proof.BodyRun.lean ====
/-
  The kernel body on whole staging buffers, at any float instance: seven loads of whole buffers, one value computed
  from them, one store of a whole buffer. From the seven input buffers at contents x0 … x6 and the output buffer at
  anything, the body runs to the same input buffers unchanged and the output buffer at the body's value of x0 … x6
  (`outBlk`, which is the named payload of the whole blocks: `outBlk_eq`).
-/
import proofs.«408551_j67293547593882_3_alg».proof.Proof.Gen.KernelIdeal.Frame
import proofs.«408551_j67293547593882_3_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every one the whole buffer -/

abbrev rA : Rect S2048x256 := Rect.unit (s := S2048x256) ![0, 0] S2048x256.size inb_S2048x256_S2048x256_0_0
abbrev rR : Rect S2048x1 := Rect.unit (s := S2048x1) ![0, 0] S2048x1.size inb_S2048x1_S2048x1_0_0
abbrev rW : Rect S256x256 := Rect.unit (s := S256x256) ![0, 0] S256x256.size inb_S256x256_S256x256_0_0
abbrev rB : Rect S1x256 := Rect.unit (s := S1x256) ![0, 0] S1x256.size inb_S1x256_S1x256_0_0
abbrev rC : Rect S3x256 := Rect.unit (s := S3x256) ![0, 0] S3x256.size inb_S3x256_S3x256_0_0
abbrev rD : Rect S3x1 := Rect.unit (s := S3x1) ![0, 0] S3x1.size inb_S3x1_S3x1_0_0
abbrev rO : Rect S3x2048 := Rect.unit (s := S3x2048) ![0, 0] S3x2048.size inb_S3x2048_S3x2048_0_0

/-- What the body leaves in the output buffer: its one store, of the payload of the seven loaded blocks. -/
def outBlk (x0 x1 : Vec F S2048x256 .f32) (x2 : Vec F S2048x1 .f32) (x3 : Vec F S256x256 .bf16) (x4 : Vec F S1x256 .f32)
    (x5 : Vec F S3x256 .bf16) (x6 : Vec F S3x1 .f32) : Vec F S3x2048 .f32 :=
  View.canon [⟨rO, k0_pay1 (View.ld x0 rA) (View.ld x1 rA) (View.ld x2 rR) (View.ld x3 rW) (View.ld x4 rB) (View.ld x5 rC) (View.ld x6 rD)⟩]

/-- The store covers the buffer. -/
theorem coverO (p0 : Vec F S3x2048 .f32) (y : S3x2048.Idx) :
    ∃ pc ∈ ([⟨rO, p0⟩] : List (View.Piece (Elt F) S3x2048 .f32)), y ∈ pc.1.set :=
  View.cover_of_tiled [⟨rO, p0⟩] S3x2048.size (by rfl) y

theorem hz2 : (![0, 0] : Fin 2 → Nat) = fun _ => 0 := funext fun a => by fin_cases a <;> rfl

/-- Every access being the whole buffer, what the body leaves is the payload of the blocks themselves. -/
theorem outBlk_eq (x0 x1 : Vec F S2048x256 .f32) (x2 : Vec F S2048x1 .f32) (x3 : Vec F S256x256 .bf16) (x4 : Vec F S1x256 .f32)
    (x5 : Vec F S3x256 .bf16) (x6 : Vec F S3x1 .f32) :
    outBlk x0 x1 x2 x3 x4 x5 x6 = k0_pay1 x0 x1 x2 x3 x4 x5 x6 := by
  unfold outBlk
  rw [View.canon_unit_zero hz2]
  simp only [View.ld_unit_zero (S := S2048x256) hz2, View.ld_unit_zero (S := S2048x1) hz2, View.ld_unit_zero (S := S256x256) hz2,
    View.ld_unit_zero (S := S1x256) hz2, View.ld_unit_zero (S := S3x256) hz2, View.ld_unit_zero (S := S3x1) hz2]

set_option maxHeartbeats 4000000 in
/-- The body's triple. -/
theorem sound_kernel (c : Dev nD) (E : Set ℕ) (i : grid0.Coords)
    (arg1 : Memref sig .tc .vmem S2048x256 .f32) (harg1 : arg1.IsWhole) (arg2 : Memref sig .tc .vmem S2048x256 .f32) (harg2 : arg2.IsWhole)
    (arg3 : Memref sig .tc .vmem S2048x1 .f32) (harg3 : arg3.IsWhole) (arg4 : Memref sig .tc .vmem S256x256 .bf16) (harg4 : arg4.IsWhole)
    (arg5 : Memref sig .tc .vmem S1x256 .f32) (harg5 : arg5.IsWhole) (arg6 : Memref sig .tc .vmem S3x256 .bf16) (harg6 : arg6.IsWhole)
    (arg7 : Memref sig .tc .vmem S3x1 .f32) (harg7 : arg7.IsWhole) (arg8 : Memref sig .tc .vmem S3x2048 .f32) (harg8 : arg8.IsWhole)
    (x0 x1 : Vec F S2048x256 .f32) (x2 : Vec F S2048x1 .f32) (x3 : Vec F S256x256 .bf16) (x4 : Vec F S1x256 .f32)
    (x5 : Vec F S3x256 .bf16) (x6 : Vec F S3x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (outBlk x0 x1 x2 x3 x4 x5 x6)) -∗ K ⟨⟩))
      ⊢ wp frame (wpE (defs₀ (F := F)) Variants.none c none) E
          (cc0__sage_classify_kernel i arg1 harg1 arg2 harg2 arg3 harg3 arg4 harg4 arg5 harg5 arg6 harg6 arg7 harg7 arg8 harg8) K := by
  simp only [cc0__sage_classify_kernel_eq_skeleton]; unfold cc0__sage_classify_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (coverO _)

end Cert.KernelIdeal.Body

end
-- ==== Proof.LibDenseRows.lean ====
/-
  Dense layers over matrices of extended reals, row by row.

  A matrix product (mm), a bias row added to every row (addRow), the positive part (relu) and a row-wise
  softmax (softmaxRows: each entry's exponential of its distance to the row's maximum, over the row's sum of those
  exponentials) are stated here as plain functions of indices, over matrices of any extents. Three kinds of facts:

  * each is ROW-LOCAL: row p of the result depends on row p of the first operand only, so that the result computed
    from a band of rows of a matrix is that band of rows of the result computed from the whole matrix
    (mm_rows, addRow_rows, relu_rows, softmaxRows_rows);
  * the vector-unit spelling of each (a product accumulated into a zero splat, a one-row cast broadcast down the rows,
    a lane maximum and a lane sum kept as a column and broadcast across the row) is that function;
  * the host spelling of each (a dot_general, broadcast_in_dims, one-operand reduces) is that function too.

  Nothing here uses more of the extended reals than 0 + x = x and max ⊥ x = x, so every statement holds at the
  infinities as well.
-/
import Idealize.ShloMosaic.Lib.StackMember
import Idealize.ShloMosaic.Lib.KernelVsHost
import Idealize.ShloMosaic.Lib.ValueIdx
import Idealize.ShloMosaic.Lib.ValueLayout
import Idealize.ShloMosaic.PureOps.Ideal.Laws

noncomputable section

open scoped BigOperators

namespace DenseRows

open Idealize.ShloMosaic Idealize.ShloMosaic.ValueIdx

/-- An m × n matrix of extended reals, indexed by (row, column). -/
abbrev Mat (m n : Nat) : Type := FVec Ideal (⟨2, ![m, n]⟩ : Shape) .f32

/-! ## The functions -/

/-- The matrix product: entry (a, b) is the sum over c of A (a, c) · B (c, b). -/
def mm {m k n : Nat} (A : Mat m k) (B : Mat k n) : Mat m n :=
  fun i => ∑ c : Fin k, A (ix2 (i 0) c) * B (ix2 c (i 1))

/-- A one-row matrix added to every row. -/
def addRow {m n : Nat} (Z : Mat m n) (r : Mat 1 n) : Mat m n :=
  fun i => Z i + r (ix2 (0 : Fin 1) (i 1))

/-- The positive part, entry by entry. -/
def relu {m n : Nat} (Z : Mat m n) : Mat m n := fun i => max (Z i) 0

/-- The largest entry of row a (the bottom element for a matrix with no columns). -/
def rowMax {m n : Nat} (Z : Mat m n) (a : Fin m) : EReal :=
  (Finset.univ : Finset (Fin n)).fold max ⊥ (fun c => Z (ix2 a c))

/-- The row's exponentials of the distances to the row's maximum. -/
def rowExp {m n : Nat} (Z : Mat m n) : Mat m n := fun i => Ideal.exp (Z i - rowMax Z (i 0))

/-- Row-wise softmax: each such exponential over the sum of its row's. -/
def softmaxRows {m n : Nat} (Z : Mat m n) : Mat m n :=
  fun i => Ideal.div (rowExp Z i) (∑ c : Fin n, rowExp Z (ix2 (i 0) c))

/-- A vector as a one-row matrix. -/
def asRow {n : Nat} (b : FVec Ideal (⟨1, ![n]⟩ : Shape) .f32) : Mat 1 n := fun i => b (ix1 (i 1))

theorem mm_apply {m k n : Nat} (A : Mat m k) (B : Mat k n) (a : Fin m) (b : Fin n) :
    mm A B (ix2 a b) = ∑ c : Fin k, A (ix2 a c) * B (ix2 c b) := rfl

/-! ## Row-locality -/

/-- Row p of X being row P of A, row p of X · B is row P of A · B. -/
theorem mm_rows {m M k n : Nat} (X : Mat m k) (A : Mat M k) (B : Mat k n) (p : Fin m) (P : Fin M)
    (h : ∀ c, X (ix2 p c) = A (ix2 P c)) (q : Fin n) : mm X B (ix2 p q) = mm A B (ix2 P q) := by
  rw [mm_apply, mm_apply]
  exact Finset.sum_congr rfl fun c _ => by rw [h c]

theorem addRow_rows {m M n : Nat} (X : Mat m n) (A : Mat M n) (r : Mat 1 n) (p : Fin m) (P : Fin M)
    (h : ∀ c, X (ix2 p c) = A (ix2 P c)) (q : Fin n) : addRow X r (ix2 p q) = addRow A r (ix2 P q) := by
  show X (ix2 p q) + r (ix2 (0 : Fin 1) q) = A (ix2 P q) + r (ix2 (0 : Fin 1) q)
  rw [h q]

theorem relu_rows {m M n : Nat} (X : Mat m n) (A : Mat M n) (p : Fin m) (P : Fin M)
    (h : ∀ c, X (ix2 p c) = A (ix2 P c)) (q : Fin n) : relu X (ix2 p q) = relu A (ix2 P q) := by
  show max (X (ix2 p q)) 0 = max (A (ix2 P q)) 0
  rw [h q]

theorem rowMax_rows {m M n : Nat} (X : Mat m n) (A : Mat M n) (p : Fin m) (P : Fin M)
    (h : ∀ c, X (ix2 p c) = A (ix2 P c)) : rowMax X p = rowMax A P := by
  unfold rowMax
  rw [show (fun c => X (ix2 p c)) = fun c => A (ix2 P c) from funext h]

theorem rowExp_rows {m M n : Nat} (X : Mat m n) (A : Mat M n) (p : Fin m) (P : Fin M)
    (h : ∀ c, X (ix2 p c) = A (ix2 P c)) (q : Fin n) : rowExp X (ix2 p q) = rowExp A (ix2 P q) := by
  show Ideal.exp (X (ix2 p q) - rowMax X p) = Ideal.exp (A (ix2 P q) - rowMax A P)
  rw [h q, rowMax_rows X A p P h]

theorem softmaxRows_rows {m M n : Nat} (X : Mat m n) (A : Mat M n) (p : Fin m) (P : Fin M)
    (h : ∀ c, X (ix2 p c) = A (ix2 P c)) (q : Fin n) : softmaxRows X (ix2 p q) = softmaxRows A (ix2 P q) := by
  show Ideal.div (rowExp X (ix2 p q)) (∑ c : Fin n, rowExp X (ix2 p c))
    = Ideal.div (rowExp A (ix2 P q)) (∑ c : Fin n, rowExp A (ix2 P c))
  rw [rowExp_rows X A p P h q]
  exact congrArg _ (Finset.sum_congr rfl fun c _ => rowExp_rows X A p P h c)

end DenseRows

end
-- ==== Proof.LibDenseForms.lean ====
/-
  The two spellings of the dense-layer functions of LibDenseRows.

  The vector unit multiplies into a zero accumulator, broadcasts a one-row value down the rows, and keeps a lane
  maximum or a lane sum as a column that it broadcasts across the row; the host program contracts with dot_general,
  broadcasts in named dimensions and reduces with an initial value. Read at the extended reals, each spelling is the
  plain function of indices: the accumulator and the sum's initial value are 0 (0 + x = x), the maximum's initial
  value is the bottom element (max ⊥ x = x), and a broadcast reads its operand at the index with the broadcast
  coordinate dropped.
-/
import proofs.«408551_j67293547593882_3_alg».proof.Proof.LibDenseRows

noncomputable section

open scoped BigOperators

namespace DenseRows

open Idealize.ShloMosaic Idealize.ShloMosaic.ValueIdx

/-- A length-m vector of extended reals. -/
abbrev Col (m : Nat) : Type := FVec Ideal (⟨1, ![m]⟩ : Shape) .f32

/-! ## The product -/

/-- The host's contraction of an m×k by a k×n matrix is the matrix product. -/
theorem dotGeneral_plain_eq_mm {m k n : Nat} (prec : Option ContractPrecision) (A : Mat m k) (B : Mat k n) :
    Host.dotGeneral (DotDims.plain m k n) prec A B = mm A B := by
  funext i
  obtain ⟨a, b, rfl⟩ : ∃ (a : Fin m) (b : Fin n), i = ix2 a b := ⟨i 0, i 1, eq_ix2 i⟩
  exact StackMember.dotGeneral_plain_apply prec A B a b

/-- The vector unit's product accumulated into the zero splat is the matrix product. -/
theorem matmul_plain_eq_mm {m k n : Nat} (prec : Option ContractPrecision) (A : Mat m k) (B : Mat k n) :
    matmul (DotDims.plain m k n) prec A B (constant (⟨2, ![m, n]⟩ : Shape) .f32 0x00000000#32) = mm A B :=
  (matmul_zero_eq_dotGeneral _ prec A B).trans (dotGeneral_plain_eq_mm prec A B)

/-! ## A bias row and the positive part -/

/-- A one-row value broadcast down the rows and added: the bias row added to every row. -/
theorem bias_vector_form {m n : Nat} (Z : Mat m n) (r : Mat 1 n)
    (hb : (⟨2, ![1, n]⟩ : Shape).Broadcasts ⟨2, ![m, n]⟩) :
    addf Z (broadcastTo (⟨2, ![m, n]⟩ : Shape) r hb) = addRow Z r := by
  funext i
  obtain ⟨p, q, rfl⟩ : ∃ (p : Fin m) (q : Fin n), i = ix2 p q := ⟨i 0, i 1, eq_ix2 i⟩
  show Z (ix2 p q) + broadcastTo (⟨2, ![m, n]⟩ : Shape) r hb (ix2 p q) = Z (ix2 p q) + r (ix2 (0 : Fin 1) q)
  rw [broadcastTo_1b_ab_apply]

/-- The host's broadcast of a one-row matrix in dimensions (0, 1), added: the same. -/
theorem bias_host_form {m n : Nat} (Z : Mat m n) (r : Mat 1 n)
    (hb : (⟨2, ![1, n]⟩ : Shape).BroadcastsInDim ⟨2, ![m, n]⟩ ![0, 1]) :
    addf Z (broadcastInDim (⟨2, ![m, n]⟩ : Shape) ![0, 1] hb r) = addRow Z r := by
  funext i
  obtain ⟨p, q, rfl⟩ : ∃ (p : Fin m) (q : Fin n), i = ix2 p q := ⟨i 0, i 1, eq_ix2 i⟩
  show Z (ix2 p q) + broadcastInDim (⟨2, ![m, n]⟩ : Shape) ![0, 1] hb r (ix2 p q) = Z (ix2 p q) + r (ix2 (0 : Fin 1) q)
  rw [broadcastInDim_oneRow_apply]

/-- The maximum with a splat of the zero word is the positive part. -/
theorem relu_vector_form {m n : Nat} (Z : Mat m n) :
    maximumf Z (broadcast (⟨2, ![m, n]⟩ : Shape) (Scalar.ofBits (F := Ideal) .f32 0x00000000#32)) = relu Z := by
  funext i
  show max (Z i) (Ideal.ofBits .f32 0x00000000#32) = max (Z i) 0
  rw [Ideal.ofBits_zero_f32]

/-- The maximum with the host's broadcast of the zero constant is the positive part. -/
theorem relu_host_form {m n : Nat} (Z : Mat m n)
    (hb : (⟨0, ![]⟩ : Shape).BroadcastsInDim ⟨2, ![m, n]⟩ ![]) :
    maximumf Z (broadcastInDim (⟨2, ![m, n]⟩ : Shape) ![] hb (constant (⟨0, ![]⟩ : Shape) .f32 0x00000000#32)) = relu Z := by
  funext i
  show max (Z i) (Ideal.ofBits .f32 0x00000000#32) = max (Z i) 0
  rw [Ideal.ofBits_zero_f32]

/-- A vector cast to one row is that row. -/
theorem shapeCast_asRow {n : Nat} (b : Col n) (h : (⟨1, ![n]⟩ : Shape).ShapeCasts ⟨2, ![1, n]⟩) :
    shapeCast (⟨2, ![1, n]⟩ : Shape) b h = asRow b := by
  funext i
  obtain ⟨u, q, rfl⟩ : ∃ (u : Fin 1) (q : Fin n), i = ix2 u q := ⟨i 0, i 1, eq_ix2 i⟩
  exact shapeCast_a_1a_apply b h u q

/-- A vector broadcast along axis 1 of a one-row matrix is that row. -/
theorem broadcastInDim_asRow {n : Nat} (b : Col n) (h : (⟨1, ![n]⟩ : Shape).BroadcastsInDim ⟨2, ![1, n]⟩ ![1]) :
    broadcastInDim (⟨2, ![1, n]⟩ : Shape) ![1] h b = asRow b := by
  funext i
  obtain ⟨u, q, rfl⟩ : ∃ (u : Fin 1) (q : Fin n), i = ix2 u q := ⟨i 0, i 1, eq_ix2 i⟩
  refine broadcastInDim_apply ![1] h b (ix2 u q) (ix1 q) fun a => ?_
  match a with
  | ⟨0, _⟩ =>
    show q.val = if n = 1 then 0 else q.val
    split
    · have := q.isLt; omega
    · rfl

/-! ## A row's maximum and a row's sum, kept as a column -/

theorem ofBits_neg_inf : Ideal.ofBits .f32 0xFF800000#32 = (⊥ : EReal) := by simp [Ideal.ofBits, Ideal.ieee]

/-- The reduced index p with column k put back is (p, k). -/
theorem lift_row {m n : Nat} (h : Shape.Reduces (⟨2, ![m, n]⟩ : Shape) [(1 : Fin 2)] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The vector unit's lane maximum from minus infinity is the row's maximum. -/
theorem laneMax_eq_rowMax {m n : Nat} (Z : Mat m n) (h : Shape.Reduces (⟨2, ![m, n]⟩ : Shape) [(1 : Fin 2)] (⟨1, ![m]⟩ : Shape))
    (hφ : FKind.Formats .f32) (hacc : (0xFF800000#32 : BitVec 32) = FKind.maximumf.neutral .f32 hφ) (p : Fin m) :
    multiReduction .maximumf [(1 : Fin 2)] (⟨1, ![m]⟩ : Shape) Z 0xFF800000#32 h hφ hacc (ix1 p) = rowMax Z p := by
  rw [Ideal.multiReduction_maximumf_single]
  unfold rowMax
  show Finset.fold max (Ideal.ofBits .f32 0xFF800000#32) (Z ∘ h.lift (ix1 p)) (Finset.univ : Finset (Fin n)) = _
  rw [ofBits_neg_inf]
  exact congrArg (fun f => Finset.fold max ⊥ f Finset.univ) (funext fun k => congrArg Z (lift_row h p k))

/-- The vector unit's lane sum from zero is the row's sum. -/
theorem laneSum_eq_rowSum {m n : Nat} (E : Mat m n) (h : Shape.Reduces (⟨2, ![m, n]⟩ : Shape) [(1 : Fin 2)] (⟨1, ![m]⟩ : Shape))
    (hφ : FKind.Formats .f32) (hacc : (0x00000000#32 : BitVec 32) = FKind.add.neutral .f32 hφ) (p : Fin m) :
    multiReduction .add [(1 : Fin 2)] (⟨1, ![m]⟩ : Shape) E 0x00000000#32 h hφ hacc (ix1 p) = ∑ c : Fin n, E (ix2 p c) := by
  rw [Ideal.multiReduction_add_single]
  show ∑ k : Fin n, E (h.lift (ix1 p) k) = _
  exact Finset.sum_congr rfl fun k _ => congrArg E (lift_row h p k)

/-- The host's reduce with a maximum body from minus infinity is the row's maximum. -/
theorem hostMax_eq_rowMax {m n : Nat} (Z : Mat m n) (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel) (p : Fin m) :
    Host.reduce FloatOps.maximumf Z (constant (⟨0, ![]⟩ : Shape) .f32 0xFF800000#32) h' hu (ix1 p) = rowMax Z p := by
  rw [Host.reduce_eq_fold_single FloatOps.maximumf Z _ h' h hu]
  unfold rowMax
  show Finset.fold max (Ideal.ofBits .f32 0xFF800000#32) (Z ∘ h.lift (ix1 p)) (Finset.univ : Finset (Fin n)) = _
  rw [ofBits_neg_inf]
  exact congrArg (fun f => Finset.fold max ⊥ f Finset.univ) (funext fun k => congrArg Z (lift_row h p k))

/-- The host's sum over axis 1 from zero is the row's sum. -/
theorem hostSum_eq_rowSum {m n : Nat} (E : Mat m n) (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel) (p : Fin m) :
    Host.reduceAdd E (constant (⟨0, ![]⟩ : Shape) .f32 0x00000000#32) h' hu (ix1 p) = ∑ c : Fin n, E (ix2 p c) := by
  show Ideal.hostReduceAdd h' E (Ideal.ofBits .f32 0x00000000#32) (ix1 p) = _
  rw [Ideal.hostReduceAdd_single h' h, Ideal.ofBits_zero_f32, zero_add]
  show ∑ k : Fin n, E (h.lift (ix1 p) k) = _
  exact Finset.sum_congr rfl fun k _ => congrArg E (lift_row h p k)

/-- A vector cast to a column and broadcast across the row reads, at (p, q), the vector at p. -/
theorem column_vector_form {m n : Nat} (v : Col m) (hc : (⟨1, ![m]⟩ : Shape).ShapeCasts ⟨2, ![m, 1]⟩)
    (hb : (⟨2, ![m, 1]⟩ : Shape).Broadcasts ⟨2, ![m, n]⟩) (p : Fin m) (q : Fin n) :
    broadcastTo (⟨2, ![m, n]⟩ : Shape) (shapeCast (⟨2, ![m, 1]⟩ : Shape) v hc) hb (ix2 p q) = v (ix1 p) := by
  rw [broadcastTo_apply _ hb (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])]
  exact shapeCast_apply v hc _ (ix1 p) (by
    rw [Shape.rowMajor_val_one, Shape.rowMajor_val_two]
    show p.val = p.val * 1 + 0
    omega)

/-- The host's two broadcasts (a vector to a column, the column across the row) read, at (p, q), the vector at p. -/
theorem column_host_form {m n : Nat} (v : Col m) (h1 : (⟨1, ![m]⟩ : Shape).BroadcastsInDim ⟨2, ![m, 1]⟩ ![0])
    (h2 : (⟨2, ![m, 1]⟩ : Shape).BroadcastsInDim ⟨2, ![m, n]⟩ ![0, 1]) (p : Fin m) (q : Fin n) :
    broadcastInDim (⟨2, ![m, n]⟩ : Shape) ![0, 1] h2 (broadcastInDim (⟨2, ![m, 1]⟩ : Shape) ![0] h1 v) (ix2 p q) = v (ix1 p) := by
  rw [broadcastInDim_apply ![0, 1] h2 _ (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])]
  exact broadcastInDim_apply ![0] h1 v (ix2 p (0 : Fin 1)) (ix1 p) (fun ax => by
    match ax with
    | ⟨0, _⟩ =>
      show p.val = if m = 1 then 0 else p.val
      split
      · have := p.isLt; omega
      · rfl)

/-! ## The row-wise softmax, whole -/

/-- The vector unit's softmax of a block of rows: the lane maximum kept as a column and subtracted, the exponential,
    the lane sum kept as a column, the quotient. -/
theorem softmax_vector_form {m n : Nat} (Z : Mat m n)
    (h : Shape.Reduces (⟨2, ![m, n]⟩ : Shape) [(1 : Fin 2)] (⟨1, ![m]⟩ : Shape))
    (hφ₁ : FKind.Formats .f32) (hmax : (0xFF800000#32 : BitVec 32) = FKind.maximumf.neutral .f32 hφ₁)
    (hφ₂ : FKind.Formats .f32) (hadd : (0x00000000#32 : BitVec 32) = FKind.add.neutral .f32 hφ₂)
    (hc : (⟨1, ![m]⟩ : Shape).ShapeCasts ⟨2, ![m, 1]⟩) (hb : (⟨2, ![m, 1]⟩ : Shape).Broadcasts ⟨2, ![m, n]⟩) :
    divf
      (exp (subf Z (broadcastTo (⟨2, ![m, n]⟩ : Shape) (shapeCast (⟨2, ![m, 1]⟩ : Shape)
        (multiReduction .maximumf [(1 : Fin 2)] (⟨1, ![m]⟩ : Shape) Z 0xFF800000#32 h hφ₁ hmax) hc) hb)))
      (broadcastTo (⟨2, ![m, n]⟩ : Shape) (shapeCast (⟨2, ![m, 1]⟩ : Shape)
        (multiReduction .add [(1 : Fin 2)] (⟨1, ![m]⟩ : Shape)
          (exp (subf Z (broadcastTo (⟨2, ![m, n]⟩ : Shape) (shapeCast (⟨2, ![m, 1]⟩ : Shape)
            (multiReduction .maximumf [(1 : Fin 2)] (⟨1, ![m]⟩ : Shape) Z 0xFF800000#32 h hφ₁ hmax) hc) hb)))
          0x00000000#32 h hφ₂ hadd) hc) hb)
      = softmaxRows Z := by
  have hE : exp (subf Z (broadcastTo (⟨2, ![m, n]⟩ : Shape) (shapeCast (⟨2, ![m, 1]⟩ : Shape)
      (multiReduction .maximumf [(1 : Fin 2)] (⟨1, ![m]⟩ : Shape) Z 0xFF800000#32 h hφ₁ hmax) hc) hb)) = rowExp Z := by
    funext i
    obtain ⟨p, q, rfl⟩ : ∃ (p : Fin m) (q : Fin n), i = ix2 p q := ⟨i 0, i 1, eq_ix2 i⟩
    show Ideal.exp (Z (ix2 p q) - broadcastTo (⟨2, ![m, n]⟩ : Shape) (shapeCast (⟨2, ![m, 1]⟩ : Shape)
      (multiReduction .maximumf [(1 : Fin 2)] (⟨1, ![m]⟩ : Shape) Z 0xFF800000#32 h hφ₁ hmax) hc) hb (ix2 p q))
        = Ideal.exp (Z (ix2 p q) - rowMax Z p)
    rw [column_vector_form, laneMax_eq_rowMax]
  rw [hE]
  funext i
  obtain ⟨p, q, rfl⟩ : ∃ (p : Fin m) (q : Fin n), i = ix2 p q := ⟨i 0, i 1, eq_ix2 i⟩
  show Ideal.div (rowExp Z (ix2 p q)) (broadcastTo (⟨2, ![m, n]⟩ : Shape) (shapeCast (⟨2, ![m, 1]⟩ : Shape)
      (multiReduction .add [(1 : Fin 2)] (⟨1, ![m]⟩ : Shape) (rowExp Z) 0x00000000#32 h hφ₂ hadd) hc) hb (ix2 p q))
    = Ideal.div (rowExp Z (ix2 p q)) (∑ c : Fin n, rowExp Z (ix2 p c))
  rw [column_vector_form, laneSum_eq_rowSum]

/-- The host's softmax of a matrix: the reduce with a maximum body (and one more maximum with minus infinity), the
    two broadcasts, the subtraction, the exponential, the sum, the two broadcasts, the quotient. -/
theorem softmax_host_form {m n : Nat} (Z : Mat m n)
    (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel)
    (h0 : (⟨0, ![]⟩ : Shape).BroadcastsInDim ⟨1, ![m]⟩ ![])
    (h1 : (⟨1, ![m]⟩ : Shape).BroadcastsInDim ⟨2, ![m, 1]⟩ ![0])
    (h2 : (⟨2, ![m, 1]⟩ : Shape).BroadcastsInDim ⟨2, ![m, n]⟩ ![0, 1]) :
    Host.divf
      (Host.exp (subf Z (broadcastInDim (⟨2, ![m, n]⟩ : Shape) ![0, 1] h2 (broadcastInDim (⟨2, ![m, 1]⟩ : Shape) ![0] h1
        (maximumf (broadcastInDim (⟨1, ![m]⟩ : Shape) ![] h0 (constant (⟨0, ![]⟩ : Shape) .f32 0xFF800000#32))
          (Host.reduce FloatOps.maximumf Z (constant (⟨0, ![]⟩ : Shape) .f32 0xFF800000#32) h' hu))))))
      (broadcastInDim (⟨2, ![m, n]⟩ : Shape) ![0, 1] h2 (broadcastInDim (⟨2, ![m, 1]⟩ : Shape) ![0] h1
        (Host.reduceAdd
          (Host.exp (subf Z (broadcastInDim (⟨2, ![m, n]⟩ : Shape) ![0, 1] h2 (broadcastInDim (⟨2, ![m, 1]⟩ : Shape) ![0] h1
            (maximumf (broadcastInDim (⟨1, ![m]⟩ : Shape) ![] h0 (constant (⟨0, ![]⟩ : Shape) .f32 0xFF800000#32))
              (Host.reduce FloatOps.maximumf Z (constant (⟨0, ![]⟩ : Shape) .f32 0xFF800000#32) h' hu))))))
          (constant (⟨0, ![]⟩ : Shape) .f32 0x00000000#32) h' hu)))
      = softmaxRows Z := by
  have hE : Host.exp (subf Z (broadcastInDim (⟨2, ![m, n]⟩ : Shape) ![0, 1] h2 (broadcastInDim (⟨2, ![m, 1]⟩ : Shape) ![0] h1
      (maximumf (broadcastInDim (⟨1, ![m]⟩ : Shape) ![] h0 (constant (⟨0, ![]⟩ : Shape) .f32 0xFF800000#32))
        (Host.reduce FloatOps.maximumf Z (constant (⟨0, ![]⟩ : Shape) .f32 0xFF800000#32) h' hu))))) = rowExp Z := by
    funext i
    obtain ⟨p, q, rfl⟩ : ∃ (p : Fin m) (q : Fin n), i = ix2 p q := ⟨i 0, i 1, eq_ix2 i⟩
    show Ideal.exp (Z (ix2 p q) - broadcastInDim (⟨2, ![m, n]⟩ : Shape) ![0, 1] h2 (broadcastInDim (⟨2, ![m, 1]⟩ : Shape) ![0] h1
      (maximumf (broadcastInDim (⟨1, ![m]⟩ : Shape) ![] h0 (constant (⟨0, ![]⟩ : Shape) .f32 0xFF800000#32))
        (Host.reduce FloatOps.maximumf Z (constant (⟨0, ![]⟩ : Shape) .f32 0xFF800000#32) h' hu))) (ix2 p q))
        = Ideal.exp (Z (ix2 p q) - rowMax Z p)
    rw [column_host_form]
    show Ideal.exp (Z (ix2 p q) - max (Ideal.ofBits .f32 0xFF800000#32)
      (Host.reduce FloatOps.maximumf Z (constant (⟨0, ![]⟩ : Shape) .f32 0xFF800000#32) h' hu (ix1 p))) = _
    rw [ofBits_neg_inf, hostMax_eq_rowMax Z h' h hu, max_bot_left]
  rw [hE]
  funext i
  obtain ⟨p, q, rfl⟩ : ∃ (p : Fin m) (q : Fin n), i = ix2 p q := ⟨i 0, i 1, eq_ix2 i⟩
  show Ideal.div (rowExp Z (ix2 p q)) (broadcastInDim (⟨2, ![m, n]⟩ : Shape) ![0, 1] h2 (broadcastInDim (⟨2, ![m, 1]⟩ : Shape) ![0] h1
      (Host.reduceAdd (rowExp Z) (constant (⟨0, ![]⟩ : Shape) .f32 0x00000000#32) h' hu)) (ix2 p q))
    = Ideal.div (rowExp Z (ix2 p q)) (∑ c : Fin n, rowExp Z (ix2 p c))
  rw [column_host_form, hostSum_eq_rowSum (rowExp Z) h' h hu]

end DenseRows

end
-- ==== Proof.LibLogSoftmax.lean ====
/-
  The row-wise log-softmax of a matrix of extended reals: each entry's distance to its row's maximum, less the
  logarithm of the row's sum of the exponentials of those distances. Stated as a plain function of indices over the
  functions of LibDenseRows (rowMax, rowExp), over matrices of any extents, with the fact that it is ROW-LOCAL: row p of
  the result depends on row p of the operand only, so the result computed from a band of rows of a matrix is that band
  of the result computed from the whole matrix (`logSoftmaxRows_rows`). It holds at the infinities as well: nothing
  of the extended reals is used but that equal rows give equal maxima and equal sums.
-/
import proofs.«408551_j67293547593882_3_alg».proof.Proof.LibDenseForms

noncomputable section

open scoped BigOperators

namespace DenseRows

open Idealize.ShloMosaic Idealize.ShloMosaic.ValueIdx

/-- Row-wise log-softmax. -/
def logSoftmaxRows {m n : Nat} (Z : Mat m n) : Mat m n :=
  fun i => (Z i - rowMax Z (i 0)) - Ideal.log (∑ c : Fin n, rowExp Z (ix2 (i 0) c))

theorem logSoftmaxRows_rows {m M n : Nat} (X : Mat m n) (A : Mat M n) (p : Fin m) (P : Fin M)
    (h : ∀ c, X (ix2 p c) = A (ix2 P c)) (q : Fin n) : logSoftmaxRows X (ix2 p q) = logSoftmaxRows A (ix2 P q) := by
  show (X (ix2 p q) - rowMax X p) - Ideal.log (∑ c : Fin n, rowExp X (ix2 p c))
    = (A (ix2 P q) - rowMax A P) - Ideal.log (∑ c : Fin n, rowExp A (ix2 P c))
  rw [h q, rowMax_rows X A p P h]
  exact congrArg (fun s => (A (ix2 P q) - rowMax A P) - Ideal.log s) (Finset.sum_congr rfl fun c _ => rowExp_rows X A p P h c)

end DenseRows

end
-- ==== Proof.Spec.lean ====
/-
  One graph-convolution layer followed by a linear classifier and a row-wise log-softmax, as plain functions of
  indices over matrices of extended reals (the dense-layer functions of LibDenseRows).

  For a matrix A of node rows (any number M of them), `head A W b Wc bc` is
      logSoftmaxRows ((A · W + b) · Wcᵀ + bcᵀ),
  the class scores of every node, normalised in log space along each row. Every step is row-local, so row p of the
  result depends on row p of A only (`head_rows`): the result computed from a band of rows is that band of the result
  computed from all rows, whatever the other rows of the band hold.

  The aggregated rows come in two spellings: `aggMul S X R` multiplies (S + X) by a column R of reciprocals,
  `aggDiv S X D` divides (S + X) by a column D of divisors. Where R = 1 / D entry by entry and no divisor is zero
  the two agree at every extended real (`aggMul_eq_aggDiv`): x · (1 · d⁻¹) = x · d⁻¹.
-/
import proofs.«408551_j67293547593882_3_alg».proof.Proof.LibDenseRows
import proofs.«408551_j67293547593882_3_alg».proof.Proof.LibLogSoftmax

noncomputable section

open scoped BigOperators

namespace SageSpec

open Idealize.ShloMosaic Idealize.ShloMosaic.ValueIdx DenseRows

/-- (S + X) scaled row by row by the one-column matrix R. -/
def aggMul {M K : Nat} (S X : Mat M K) (R : Mat M 1) : Mat M K :=
  fun i => (S i + X i) * R (ix2 (i 0) (0 : Fin 1))

/-- (S + X) divided row by row by the vector D. -/
def aggDiv {M K : Nat} (S X : Mat M K) (D : FVec Ideal (⟨1, ![M]⟩ : Shape) .f32) : Mat M K :=
  fun i => Ideal.div (S i + X i) (D (ix1 (i 0)))

/-- The transpose of a matrix. -/
def tr {m n : Nat} (A : Mat m n) : Mat n m := fun i => A (ix2 (i 1) (i 0))

/-- A one-column matrix as a one-row matrix. -/
def colAsRow {n : Nat} (b : Mat n 1) : Mat 1 n := fun i => b (ix2 (i 1) (0 : Fin 1))

/-- A vector as a one-column matrix. -/
def asCol {n : Nat} (b : FVec Ideal (⟨1, ![n]⟩ : Shape) .f32) : Mat n 1 := fun i => b (ix1 (i 0))

theorem colAsRow_asCol {n : Nat} (b : FVec Ideal (⟨1, ![n]⟩ : Shape) .f32) : colAsRow (asCol b) = asRow b := rfl

/-- The layer, the classifier and the row-wise log-softmax of the node rows A. -/
def head {M K H C : Nat} (A : Mat M K) (W : Mat K H) (b : Mat 1 H) (Wc : Mat C H) (bc : Mat C 1) : Mat M C :=
  logSoftmaxRows (addRow (mm (addRow (mm A W) b) (tr Wc)) (colAsRow bc))

/-- Row p of X being row P of A, row p of the head of X is row P of the head of A. -/
theorem head_rows {m M K H C : Nat} (X : Mat m K) (A : Mat M K) (W : Mat K H) (b : Mat 1 H) (Wc : Mat C H) (bc : Mat C 1)
    (p : Fin m) (P : Fin M) (h : ∀ k, X (ix2 p k) = A (ix2 P k)) (q : Fin C) :
    head X W b Wc bc (ix2 p q) = head A W b Wc bc (ix2 P q) := by
  unfold head
  refine logSoftmaxRows_rows _ _ p P (fun c => ?_) q
  refine addRow_rows _ _ _ p P (fun c' => ?_) c
  refine mm_rows _ _ _ p P (fun k => ?_) c'
  refine addRow_rows _ _ _ p P (fun k' => ?_) k
  exact mm_rows _ _ _ p P h k'

/-- Rows that agree give aggregated rows that agree. -/
theorem aggMul_rows {m M K : Nat} (S X : Mat m K) (R : Mat m 1) (S' X' : Mat M K) (R' : Mat M 1) (p : Fin m) (P : Fin M)
    (hS : ∀ k, S (ix2 p k) = S' (ix2 P k)) (hX : ∀ k, X (ix2 p k) = X' (ix2 P k))
    (hR : R (ix2 p (0 : Fin 1)) = R' (ix2 P (0 : Fin 1))) (k : Fin K) :
    aggMul S X R (ix2 p k) = aggMul S' X' R' (ix2 P k) := by
  show (S (ix2 p k) + X (ix2 p k)) * R (ix2 p (0 : Fin 1)) = (S' (ix2 P k) + X' (ix2 P k)) * R' (ix2 P (0 : Fin 1))
  rw [hS k, hX k, hR]

/-- Multiplying by the reciprocal of a divisor that is not zero is dividing by it, at every extended real. -/
theorem aggMul_eq_aggDiv {M K : Nat} (S X : Mat M K) (R : Mat M 1) (D : FVec Ideal (⟨1, ![M]⟩ : Shape) .f32)
    (hR : ∀ p : Fin M, R (ix2 p (0 : Fin 1)) = Ideal.div 1 (D (ix1 p))) (hD : ∀ p : Fin M, D (ix1 p) ≠ 0) :
    aggMul S X R = aggDiv S X D := by
  funext i
  obtain ⟨p, k, rfl⟩ : ∃ (p : Fin M) (k : Fin K), i = ix2 p k := ⟨i 0, i 1, eq_ix2 i⟩
  show (S (ix2 p k) + X (ix2 p k)) * R (ix2 p (0 : Fin 1)) = Ideal.div (S (ix2 p k) + X (ix2 p k)) (D (ix1 p))
  rw [hR p]
  unfold Ideal.div
  rw [if_neg (hD p), if_neg (hD p), one_mul]

end SageSpec

end
-- ==== Proof.KerData.lean ====
/-
  The proof data of the idealized kernel's one pipeline, with every staged array named.

  The region stages seven arrays (A0 … A6: the summed messages, the node features, the reciprocal degree column, the
  two weight matrices and the two bias matrices, as the host lines before the region leave them) and writes one, the
  class scores in (class, node) layout. Its grid has 25 points of 2048 node rows each; 25 · 2048 exceeds the 50000
  rows, so the last point's blocks of A0, A1, A2 and of the result overhang their arrays: a fetch fills only the rows
  inside the array and leaves anything in the others, a write-back writes only the columns inside the array.
  After the body at point t the three overhanging input buffers hold their blocks on the rows inside the array (here
  filled out with zeros), the four others their whole arrays, and the result's buffer holds, on the columns inside the
  array, the body's value of those — named here as the body's value of the zero-filled blocks, of which only the
  columns inside the array are ever read back.
  `GT` is what the result array holds in the end: entry (q, n) is the head — layer, classifier, row-wise
  log-softmax — of the aggregated node rows at (n, q).
-/
import proofs.«408551_j67293547593882_3_alg».proof.Proof.BodyRun
import proofs.«408551_j67293547593882_3_alg».proof.Proof.Spec

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.RA Idealize.SL.Sem
open Idealize.ShloMosaic.Pipeline (Dat Cfg Window)

variable (m : (ℓ : Loc nD τ sig) → Buf (Elt Ideal) ℓ)

/-- The seven arrays the region stages, as the region finds them. -/
abbrev A0 (c : Dev nD) : Vec Ideal S50000x256 .f32 := V m c main_call0_v20
abbrev A1 (c : Dev nD) : Vec Ideal S50000x256 .f32 := V m c main_call0_v10
abbrev A2 (c : Dev nD) : Vec Ideal S50000x1 .f32 := V m c main_call0_v29
abbrev A3 (c : Dev nD) : Vec Ideal S256x256 .bf16 := V m c main_call0_v30
abbrev A4 (c : Dev nD) : Vec Ideal S1x256 .f32 := V m c main_call0_v32
abbrev A5 (c : Dev nD) : Vec Ideal S3x256 .bf16 := V m c main_call0_v31
abbrev A6 (c : Dev nD) : Vec Ideal S3x1 .f32 := V m c main_call0_v33

/-- The result array after the region, in its own layout (class, node): entry (q, n) is the head of the aggregated
    node rows at (n, q). -/
def GT (c : Dev nD) : Vec Ideal S3x50000 .f32 := fun i =>
  SageSpec.head (M := 50000) (K := 256) (H := 256) (C := 3)
    (SageSpec.aggMul (M := 50000) (K := 256) (A0 m c) (A1 m c) (A2 m c)) (A3 m c) (A4 m c) (A5 m c) (A6 m c) (ix2 (i 1) (i 0))

/-- The three overhanging input blocks at point t, filled out with zeros past the array's end. -/
def blk0 (c : Dev nD) (t : Fin cfg0.N) : Vec Ideal S2048x256 .f32 :=
  win0_0.fill (grid0.coords t) (fun _ => (0 : EReal)) (iblk m c 0 t)
def blk1 (c : Dev nD) (t : Fin cfg0.N) : Vec Ideal S2048x256 .f32 :=
  win0_1.fill (grid0.coords t) (fun _ => (0 : EReal)) (iblk m c 1 t)
def blk2 (c : Dev nD) (t : Fin cfg0.N) : Vec Ideal S2048x1 .f32 :=
  win0_2.fill (grid0.coords t) (fun _ => (0 : EReal)) (iblk m c 2 t)

/-- The body's value of those and of the four whole arrays. -/
def oblk (c : Dev nD) (t : Fin cfg0.N) : Vec Ideal S3x2048 .f32 :=
  k0_pay1 (F := Ideal) (blk0 m c t) (blk1 m c t) (blk2 m c t) (iblk m c 3 t) (iblk m c 4 t) (iblk m c 5 t) (iblk m c 6 t)

/-- The proof data: the arrays as the region finds them; after the body the buffers as above; the class's invariant;
    nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => blk0 m c t
    | ⟨1, _⟩ => blk1 m c t
    | ⟨2, _⟩ => blk2 m c t
    | ⟨3, _⟩ => iblk m c 3 t
    | ⟨4, _⟩ => iblk m c 4 t
    | ⟨5, _⟩ => iblk m c 5 t
    | ⟨6, _⟩ => iblk m c 6 t
    | ⟨7, _⟩ => oblk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = blk0 m c t := by dsimp only [dats]
theorem after0_1 (c : Dev nD) (t : Fin cfg0.N) : (dats m 0 c).after 1 t = blk1 m c t := by dsimp only [dats]
theorem after0_2 (c : Dev nD) (t : Fin cfg0.N) : (dats m 0 c).after 2 t = blk2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = oblk m c t := by dsimp only [dats]

end Cert.KernelIdeal.Run

end
-- ==== Proof.KerPayload.lean ====
/-
  The kernel body's value at one output element, read at the extended reals: the entry (c, j) of the block the body
  stores is the entry (j, c) of the head — layer, classifier, row-wise log-softmax — of the block's own aggregated rows.

  The body works on the TRANSPOSED score block: classes down the sublanes, nodes along the lanes. Its second product
  contracts the last axis of both operands, so the score at (c, j) is the sum over k of Wc (c, k) · h (j, k), which is
  the node-major product's entry (j, c) once each product is commuted; its maximum and its sum run over axis 0 and
  are kept as one row that is broadcast down, which read at (c, j) are the row maximum and the row sum of node j.
  Beyond re-indexing the facts used are x · y = y · x, 0 + x = x and max ⊥ x = x, all of which hold at every
  extended real.
-/
import proofs.«408551_j67293547593882_3_alg».proof.Proof.Gen.KernelIdeal.Skeleton
import proofs.«408551_j67293547593882_3_alg».proof.Proof.Spec

set_option maxRecDepth 16384

noncomputable section

open scoped BigOperators

namespace Cert.KernelIdeal.Payload

open Cert.KernelIdeal Cert.KernelIdeal.Gen
open Idealize.ShloMosaic Idealize.ShloMosaic.ValueIdx DenseRows SageSpec

/-! ## Layout: a column across the row, a row down the rows -/

/-- A one-column matrix broadcast across the row reads, at (p, q), the column at p. -/
private theorem broadcastTo_a1_ab_apply {a b : Nat} (v : Mat a 1) (h : (⟨2, ![a, 1]⟩ : Shape).Broadcasts ⟨2, ![a, b]⟩)
    (p : Fin a) (q : Fin b) : broadcastTo (⟨2, ![a, b]⟩ : Shape) v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : Nat) = 1 then 0 else q.val
    rw [if_pos rfl]

/-- A vector cast to one row and broadcast down the rows reads, at (c, j), the vector at j. -/
private theorem row_vector_form {n m : Nat} (v : Col m) (hc : (⟨1, ![m]⟩ : Shape).ShapeCasts ⟨2, ![1, m]⟩)
    (hb : (⟨2, ![1, m]⟩ : Shape).Broadcasts ⟨2, ![n, m]⟩) (c : Fin n) (j : Fin m) :
    broadcastTo (⟨2, ![n, m]⟩ : Shape) (shapeCast (⟨2, ![1, m]⟩ : Shape) v hc) hb (ix2 c j) = v (ix1 j) := by
  rw [broadcastTo_1b_ab_apply]
  exact shapeCast_a_1a_apply v hc (0 : Fin 1) j

/-! ## A column's maximum and a column's sum of the transposed block, kept as a row -/

/-- The reduced index j with row k put back is (k, j). -/
private theorem lift_col {n m : Nat} (h : Shape.Reduces (⟨2, ![n, m]⟩ : Shape) [(0 : Fin 2)] (⟨1, ![m]⟩ : Shape)) (j : Fin m)
    (k : Fin ((⟨2, ![n, m]⟩ : Shape).size 0)) : h.lift (ix1 j) k = ix2 (⟨k.val, k.isLt⟩ : Fin n) j := by
  funext c; apply Fin.ext
  fin_cases c <;> rfl

/-- The maximum over axis 0 from minus infinity of the transposed block is the row's maximum of the block. -/
private theorem colMax_eq_rowMax {n m : Nat} (ZT : Mat n m) (Z : Mat m n) (hZ : ∀ c j, ZT (ix2 c j) = Z (ix2 j c))
    (h : Shape.Reduces (⟨2, ![n, m]⟩ : Shape) [(0 : Fin 2)] (⟨1, ![m]⟩ : Shape))
    (hφ : FKind.Formats .f32) (hacc : (0xFF800000#32 : BitVec 32) = FKind.maximumf.neutral .f32 hφ) (j : Fin m) :
    multiReduction .maximumf [(0 : Fin 2)] (⟨1, ![m]⟩ : Shape) ZT 0xFF800000#32 h hφ hacc (ix1 j) = rowMax Z j := by
  rw [Ideal.multiReduction_maximumf_single]
  unfold rowMax
  show Finset.fold max (Ideal.ofBits .f32 0xFF800000#32) (ZT ∘ h.lift (ix1 j)) (Finset.univ : Finset (Fin n)) = _
  rw [ofBits_neg_inf]
  exact congrArg (fun f => Finset.fold max ⊥ f Finset.univ)
    (funext fun k => (congrArg ZT (lift_col h j k)).trans (hZ _ _))

/-- The sum over axis 0 from zero of the transposed block is the row's sum of the block. -/
private theorem colSum_eq_rowSum {n m : Nat} (ET : Mat n m) (E : Mat m n) (hE : ∀ c j, ET (ix2 c j) = E (ix2 j c))
    (h : Shape.Reduces (⟨2, ![n, m]⟩ : Shape) [(0 : Fin 2)] (⟨1, ![m]⟩ : Shape))
    (hφ : FKind.Formats .f32) (hacc : (0x00000000#32 : BitVec 32) = FKind.add.neutral .f32 hφ) (j : Fin m) :
    multiReduction .add [(0 : Fin 2)] (⟨1, ![m]⟩ : Shape) ET 0x00000000#32 h hφ hacc (ix1 j) = ∑ c : Fin n, E (ix2 j c) := by
  rw [Ideal.multiReduction_add_single]
  show ∑ k : Fin n, ET (h.lift (ix1 j) k) = _
  exact Finset.sum_congr rfl fun k _ => (congrArg ET (lift_col h j k)).trans (hE _ _)

/-! ## The log-softmax down the columns of the transposed block -/

/-- The body's spelling over the transposed block — the maximum over axis 0 kept as one row, broadcast down and
    subtracted; the exponential; the sum over axis 0 kept as one row; its logarithm, broadcast down and subtracted —
    read at (c, j) is the row-wise log-softmax of the block at (j, c). -/
private theorem logSoftmax_cols_vector_form {n m : Nat} (ZT : Mat n m) (Z : Mat m n) (hZ : ∀ c j, ZT (ix2 c j) = Z (ix2 j c))
    (h : Shape.Reduces (⟨2, ![n, m]⟩ : Shape) [(0 : Fin 2)] (⟨1, ![m]⟩ : Shape))
    (hφ₁ : FKind.Formats .f32) (hmax : (0xFF800000#32 : BitVec 32) = FKind.maximumf.neutral .f32 hφ₁)
    (hφ₂ : FKind.Formats .f32) (hadd : (0x00000000#32 : BitVec 32) = FKind.add.neutral .f32 hφ₂)
    (hc : (⟨1, ![m]⟩ : Shape).ShapeCasts ⟨2, ![1, m]⟩) (hb : (⟨2, ![1, m]⟩ : Shape).Broadcasts ⟨2, ![n, m]⟩)
    (c : Fin n) (j : Fin m) :
    subf
      (subf ZT (broadcastTo (⟨2, ![n, m]⟩ : Shape) (shapeCast (⟨2, ![1, m]⟩ : Shape)
        (multiReduction .maximumf [(0 : Fin 2)] (⟨1, ![m]⟩ : Shape) ZT 0xFF800000#32 h hφ₁ hmax) hc) hb))
      (broadcastTo (⟨2, ![n, m]⟩ : Shape) (log (shapeCast (⟨2, ![1, m]⟩ : Shape)
        (multiReduction .add [(0 : Fin 2)] (⟨1, ![m]⟩ : Shape)
          (exp (subf ZT (broadcastTo (⟨2, ![n, m]⟩ : Shape) (shapeCast (⟨2, ![1, m]⟩ : Shape)
            (multiReduction .maximumf [(0 : Fin 2)] (⟨1, ![m]⟩ : Shape) ZT 0xFF800000#32 h hφ₁ hmax) hc) hb)))
          0x00000000#32 h hφ₂ hadd) hc)) hb)
      (ix2 c j)
      = logSoftmaxRows Z (ix2 j c) := by
  have hD : ∀ (c : Fin n) (j : Fin m),
      subf ZT (broadcastTo (⟨2, ![n, m]⟩ : Shape) (shapeCast (⟨2, ![1, m]⟩ : Shape)
        (multiReduction .maximumf [(0 : Fin 2)] (⟨1, ![m]⟩ : Shape) ZT 0xFF800000#32 h hφ₁ hmax) hc) hb) (ix2 c j)
        = Z (ix2 j c) - rowMax Z j := by
    intro c j
    show ZT (ix2 c j) - broadcastTo (⟨2, ![n, m]⟩ : Shape) (shapeCast (⟨2, ![1, m]⟩ : Shape)
        (multiReduction .maximumf [(0 : Fin 2)] (⟨1, ![m]⟩ : Shape) ZT 0xFF800000#32 h hφ₁ hmax) hc) hb (ix2 c j) = _
    rw [row_vector_form, colMax_eq_rowMax ZT Z hZ, hZ]
  have hE : ∀ (c : Fin n) (j : Fin m),
      exp (subf ZT (broadcastTo (⟨2, ![n, m]⟩ : Shape) (shapeCast (⟨2, ![1, m]⟩ : Shape)
        (multiReduction .maximumf [(0 : Fin 2)] (⟨1, ![m]⟩ : Shape) ZT 0xFF800000#32 h hφ₁ hmax) hc) hb)) (ix2 c j)
        = rowExp Z (ix2 j c) := by
    intro c j
    show Ideal.exp (subf ZT (broadcastTo (⟨2, ![n, m]⟩ : Shape) (shapeCast (⟨2, ![1, m]⟩ : Shape)
        (multiReduction .maximumf [(0 : Fin 2)] (⟨1, ![m]⟩ : Shape) ZT 0xFF800000#32 h hφ₁ hmax) hc) hb) (ix2 c j))
        = Ideal.exp (Z (ix2 j c) - rowMax Z j)
    rw [hD]
  show subf ZT (broadcastTo (⟨2, ![n, m]⟩ : Shape) (shapeCast (⟨2, ![1, m]⟩ : Shape)
        (multiReduction .maximumf [(0 : Fin 2)] (⟨1, ![m]⟩ : Shape) ZT 0xFF800000#32 h hφ₁ hmax) hc) hb) (ix2 c j)
      - broadcastTo (⟨2, ![n, m]⟩ : Shape) (log (shapeCast (⟨2, ![1, m]⟩ : Shape)
        (multiReduction .add [(0 : Fin 2)] (⟨1, ![m]⟩ : Shape)
          (exp (subf ZT (broadcastTo (⟨2, ![n, m]⟩ : Shape) (shapeCast (⟨2, ![1, m]⟩ : Shape)
            (multiReduction .maximumf [(0 : Fin 2)] (⟨1, ![m]⟩ : Shape) ZT 0xFF800000#32 h hφ₁ hmax) hc) hb)))
          0x00000000#32 h hφ₂ hadd) hc)) hb (ix2 c j)
      = (Z (ix2 j c) - rowMax Z j) - Ideal.log (∑ c' : Fin n, rowExp Z (ix2 j c'))
  rw [hD, broadcastTo_1b_ab_apply]
  show _ - Ideal.log (shapeCast (⟨2, ![1, m]⟩ : Shape)
        (multiReduction .add [(0 : Fin 2)] (⟨1, ![m]⟩ : Shape)
          (exp (subf ZT (broadcastTo (⟨2, ![n, m]⟩ : Shape) (shapeCast (⟨2, ![1, m]⟩ : Shape)
            (multiReduction .maximumf [(0 : Fin 2)] (⟨1, ![m]⟩ : Shape) ZT 0xFF800000#32 h hφ₁ hmax) hc) hb)))
          0x00000000#32 h hφ₂ hadd) hc (ix2 (0 : Fin 1) j)) = _
  rw [shapeCast_a_1a_apply, colSum_eq_rowSum _ (rowExp Z) hE]

/-! ## The aggregated rows and the layer -/

/-- The sum of the two blocks scaled by the column broadcast across the row is the aggregated block. -/
private theorem agg_form (v0 v2 : Mat 2048 256) (v5 : Mat 2048 1)
    (h0 : (⟨2, ![2048, 256]⟩ : Shape).ShapeCasts ⟨2, ![2048, 256]⟩) (h5 : (⟨2, ![2048, 1]⟩ : Shape).ShapeCasts ⟨2, ![2048, 1]⟩)
    (hb : (⟨2, ![2048, 1]⟩ : Shape).Broadcasts ⟨2, ![2048, 256]⟩) (hlt : FTy.bits .bf16 < FTy.bits .f32) :
    truncf .bf16 (mulf (addf (shapeCast (⟨2, ![2048, 256]⟩ : Shape) v0 h0) (shapeCast (⟨2, ![2048, 256]⟩ : Shape) v2 h0))
      (broadcastTo (⟨2, ![2048, 256]⟩ : Shape) (shapeCast (⟨2, ![2048, 1]⟩ : Shape) v5 h5) hb)) hlt
      = aggMul v0 v2 v5 := by
  rw [shapeCast_self, shapeCast_self, shapeCast_self]
  funext i
  obtain ⟨p, q, rfl⟩ : ∃ (p : Fin 2048) (q : Fin 256), i = ix2 p q := ⟨i 0, i 1, eq_ix2 i⟩
  show (v0 (ix2 p q) + v2 (ix2 p q)) * broadcastTo (⟨2, ![2048, 256]⟩ : Shape) v5 hb (ix2 p q)
    = (v0 (ix2 p q) + v2 (ix2 p q)) * v5 (ix2 p (0 : Fin 1))
  rw [broadcastTo_a1_ab_apply]

/-- The first product, rows by contraction times contraction by columns, into the zero splat is the matrix product. -/
private theorem layer_matmul_eq_mm (A : FVec Ideal (⟨2, ![2048, 256]⟩ : Shape) .bf16) (B : FVec Ideal (⟨2, ![256, 256]⟩ : Shape) .bf16) :
    matmul dot_S2048x256_S256x256_S2048x256_1_0_0_1_n_n none A B (constant (F := Ideal) (⟨2, ![2048, 256]⟩ : Shape) .f32 0x00000000#32) = mm A B := by
  funext i
  obtain ⟨a, b, rfl⟩ : ∃ (a : Fin 2048) (b : Fin 256), i = ix2 a b := ⟨i 0, i 1, eq_ix2 i⟩
  show matmul (DotDims.plain 2048 256 256) none A B (constant (F := Ideal) (⟨2, ![2048, 256]⟩ : Shape) .f32 0x00000000#32) (ix2 a b)
    = ∑ c : Fin 256, A (ix2 a c) * B (ix2 c b)
  rw [matmul_zero_eq_dotGeneral]
  exact StackMember.dotGeneral_plain_apply none A B a b

/-- The product with the weights into the zero splat plus the bias row broadcast down is the layer. -/
private theorem layer_form (A : FVec Ideal (⟨2, ![2048, 256]⟩ : Shape) .bf16) (v10 : FVec Ideal (⟨2, ![256, 256]⟩ : Shape) .bf16)
    (v13 : Mat 1 256)
    (h10 : (⟨2, ![256, 256]⟩ : Shape).ShapeCasts ⟨2, ![256, 256]⟩) (h13 : (⟨2, ![1, 256]⟩ : Shape).ShapeCasts ⟨2, ![1, 256]⟩)
    (hb : (⟨2, ![1, 256]⟩ : Shape).Broadcasts ⟨2, ![2048, 256]⟩) (hlt : FTy.bits .bf16 < FTy.bits .f32) :
    truncf .bf16 (addf
      (matmul dot_S2048x256_S256x256_S2048x256_1_0_0_1_n_n none A (shapeCast (⟨2, ![256, 256]⟩ : Shape) v10 h10)
        (constant (F := Ideal) (⟨2, ![2048, 256]⟩ : Shape) .f32 0x00000000#32))
      (broadcastTo (⟨2, ![2048, 256]⟩ : Shape) (shapeCast (⟨2, ![1, 256]⟩ : Shape) v13 h13) hb)) hlt
      = addRow (mm A v10) v13 := by
  rw [shapeCast_self, shapeCast_self, layer_matmul_eq_mm]
  show addf (mm A v10) (broadcastTo (⟨2, ![2048, 256]⟩ : Shape) v13 hb) = _
  rw [bias_vector_form]

/-! ## The class scores, transposed -/

private theorem lhs_scores_0 (i : S3x2048.Idx) (q : dot_S3x256_S2048x256_S3x2048_1_1_0_0_n_n.contr.Idx) :
    (dot_S3x256_S2048x256_S3x2048_1_1_0_0_n_n.lhsIdx i q 0).val = (i 0).val := by
  unfold DotDims.lhsIdx
  rw [dif_neg (show ¬(0 : Fin S3x256.rank) ∈ dot_S3x256_S2048x256_S3x2048_1_1_0_0_n_n.lhsBatch by decide), dif_pos (show (0 : Fin S3x256.rank) ∈ dot_S3x256_S2048x256_S3x2048_1_1_0_0_n_n.lhsNonContracting by decide)]
  rfl
private theorem lhs_scores_1 (i : S3x2048.Idx) (q : dot_S3x256_S2048x256_S3x2048_1_1_0_0_n_n.contr.Idx) :
    (dot_S3x256_S2048x256_S3x2048_1_1_0_0_n_n.lhsIdx i q 1).val = (q ⟨0, by decide⟩).val :=
  dot_S3x256_S2048x256_S3x2048_1_1_0_0_n_n.lhsIdx_val_of_single rfl i q
private theorem rhs_scores_0 (i : S3x2048.Idx) (q : dot_S3x256_S2048x256_S3x2048_1_1_0_0_n_n.contr.Idx) :
    (dot_S3x256_S2048x256_S3x2048_1_1_0_0_n_n.rhsIdx i q 0).val = (i 1).val := by
  unfold DotDims.rhsIdx
  rw [dif_neg (show ¬(0 : Fin S2048x256.rank) ∈ dot_S3x256_S2048x256_S3x2048_1_1_0_0_n_n.rhsBatch by decide), dif_pos (show (0 : Fin S2048x256.rank) ∈ dot_S3x256_S2048x256_S3x2048_1_1_0_0_n_n.rhsNonContracting by decide)]
  rfl
private theorem rhs_scores_1 (i : S3x2048.Idx) (q : dot_S3x256_S2048x256_S3x2048_1_1_0_0_n_n.contr.Idx) :
    (dot_S3x256_S2048x256_S3x2048_1_1_0_0_n_n.rhsIdx i q 1).val = (q ⟨0, by decide⟩).val :=
  dot_S3x256_S2048x256_S3x2048_1_1_0_0_n_n.rhsIdx_val_of_single rfl i q

/-- The second product contracts the last axis of both operands: at (c, j) it is the sum over k of W (c, k) · H (j, k). -/
private theorem scores_matmul_apply {φ₁ φ₂ : FTy} (W : FVec Ideal (⟨2, ![3, 256]⟩ : Shape) φ₁) (H : FVec Ideal (⟨2, ![2048, 256]⟩ : Shape) φ₂)
    (c : Fin 3) (j : Fin 2048) :
    matmul dot_S3x256_S2048x256_S3x2048_1_1_0_0_n_n none W H (constant (F := Ideal) (⟨2, ![3, 2048]⟩ : Shape) .f32 0x00000000#32) (ix2 c j)
      = ∑ k : Fin 256, W (ix2 c k) * H (ix2 j k) := by
  show FloatOps.matmul dot_S3x256_S2048x256_S3x2048_1_1_0_0_n_n none W H (constant (F := Ideal) (⟨2, ![3, 2048]⟩ : Shape) .f32 0x00000000#32) (ix2 c j) = _
  rw [Ideal.matmul_constant_zero_apply, ← Equiv.sum_comp (contrEquiv1 dot_S3x256_S2048x256_S3x2048_1_1_0_0_n_n 256 rfl rfl).symm]
  refine Finset.sum_congr rfl fun k _ => ?_
  have hk := contrEquiv1_symm_val dot_S3x256_S2048x256_S3x2048_1_1_0_0_n_n 256 rfl rfl k
  have el : dot_S3x256_S2048x256_S3x2048_1_1_0_0_n_n.lhsIdx (ix2 c j) ((contrEquiv1 dot_S3x256_S2048x256_S3x2048_1_1_0_0_n_n 256 rfl rfl).symm k) = ix2 c k := funext fun a => Fin.ext (by
    match a with
    | ⟨0, _⟩ => exact lhs_scores_0 _ _
    | ⟨1, _⟩ => exact (lhs_scores_1 _ _).trans hk)
  have er : dot_S3x256_S2048x256_S3x2048_1_1_0_0_n_n.rhsIdx (ix2 c j) ((contrEquiv1 dot_S3x256_S2048x256_S3x2048_1_1_0_0_n_n 256 rfl rfl).symm k) = ix2 j k := funext fun a => Fin.ext (by
    match a with
    | ⟨0, _⟩ => exact rhs_scores_0 _ _
    | ⟨1, _⟩ => exact (rhs_scores_1 _ _).trans hk)
  rw [el, er]

/-- The transposed scores: the second product plus the class bias column broadcast across the lanes, read at (c, j),
    is the classifier's score of node j for class c. -/
private theorem scores_form (H : FVec Ideal (⟨2, ![2048, 256]⟩ : Shape) .bf16) (v18 : FVec Ideal (⟨2, ![3, 256]⟩ : Shape) .bf16) (v21 : Mat 3 1)
    (h18 : (⟨2, ![3, 256]⟩ : Shape).ShapeCasts ⟨2, ![3, 256]⟩) (h21 : (⟨2, ![3, 1]⟩ : Shape).ShapeCasts ⟨2, ![3, 1]⟩)
    (hb : (⟨2, ![3, 1]⟩ : Shape).Broadcasts ⟨2, ![3, 2048]⟩) (c : Fin 3) (j : Fin 2048) :
    addf
      (matmul dot_S3x256_S2048x256_S3x2048_1_1_0_0_n_n none (shapeCast (⟨2, ![3, 256]⟩ : Shape) v18 h18) H
        (constant (F := Ideal) (⟨2, ![3, 2048]⟩ : Shape) .f32 0x00000000#32))
      (broadcastTo (⟨2, ![3, 2048]⟩ : Shape) (shapeCast (⟨2, ![3, 1]⟩ : Shape) v21 h21) hb) (ix2 c j)
      = addRow (mm H (tr v18)) (colAsRow v21) (ix2 j c) := by
  rw [shapeCast_self, shapeCast_self]
  show matmul dot_S3x256_S2048x256_S3x2048_1_1_0_0_n_n none v18 H (constant (F := Ideal) (⟨2, ![3, 2048]⟩ : Shape) .f32 0x00000000#32) (ix2 c j)
      + broadcastTo (⟨2, ![3, 2048]⟩ : Shape) v21 hb (ix2 c j)
    = (∑ k : Fin 256, H (ix2 j k) * v18 (ix2 c k)) + v21 (ix2 c (0 : Fin 1))
  rw [scores_matmul_apply, broadcastTo_a1_ab_apply]
  exact congrArg (· + v21 (ix2 c (0 : Fin 1))) (Finset.sum_congr rfl fun k _ => mul_comm _ _)

/-! ## The payload -/

theorem pay_eq (v0 v2 : Vec Ideal S2048x256 .f32) (v5 : Vec Ideal S2048x1 .f32) (v10 : Vec Ideal S256x256 .bf16)
    (v13 : Vec Ideal S1x256 .f32) (v18 : Vec Ideal S3x256 .bf16) (v21 : Vec Ideal S3x1 .f32) (c : Fin 3) (j : Fin 2048) :
    k0_pay1 (F := Ideal) v0 v2 v5 v10 v13 v18 v21 (ix2 c j)
      = head (M := 2048) (K := 256) (H := 256) (C := 3) (aggMul (M := 2048) (K := 256) v0 v2 v5) v10 v13 v18 v21 (ix2 j c) := by
  unfold k0_pay1 head
  refine logSoftmax_cols_vector_form _ (addRow (mm (addRow (mm (aggMul v0 v2 v5) v10) v13) (tr v18)) (colAsRow v21))
    (fun c j => ?_) _ _ _ _ _ _ _ c j
  rw [agg_form, layer_form]
  exact scores_form _ _ _ _ _ _ c j

end Cert.KernelIdeal.Payload

end
-- ==== Proof.KerFlush.lean ====
/-
  What the body's value of a point's blocks is on the columns inside the result array: the result's entries there,
  whatever fills the overhanging input blocks out past their arrays' ends.
-/
import proofs.«408551_j67293547593882_3_alg».proof.Proof.KerData
import proofs.«408551_j67293547593882_3_alg».proof.Proof.KerPayload

set_option maxRecDepth 16384

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-- The printed index maps and cut sizes, decided once over the grid: the three overhanging input windows move along
    their rows as the result's window moves along its columns, with the same cut there; their other axes, and the
    result's classes, are whole; the result's cut columns end inside the array. -/
private theorem grid_facts : ∀ t : Fin cfg0.N,
    win0_0.index t (0 : Fin 2) = win0_7.index t (1 : Fin 2) ∧ win0_0.index t (1 : Fin 2) = 0
    ∧ win0_1.index t (0 : Fin 2) = win0_7.index t (1 : Fin 2) ∧ win0_1.index t (1 : Fin 2) = 0
    ∧ win0_2.index t (0 : Fin 2) = win0_7.index t (1 : Fin 2) ∧ win0_2.index t (1 : Fin 2) = 0
    ∧ win0_7.index t (0 : Fin 2) = 0
    ∧ win0_0.xsize (grid0.coords t) (0 : Fin 2) = win0_7.xsize (grid0.coords t) (1 : Fin 2)
    ∧ win0_0.xsize (grid0.coords t) (1 : Fin 2) = 256
    ∧ win0_1.xsize (grid0.coords t) (0 : Fin 2) = win0_7.xsize (grid0.coords t) (1 : Fin 2)
    ∧ win0_1.xsize (grid0.coords t) (1 : Fin 2) = 256
    ∧ win0_2.xsize (grid0.coords t) (0 : Fin 2) = win0_7.xsize (grid0.coords t) (1 : Fin 2)
    ∧ win0_2.xsize (grid0.coords t) (1 : Fin 2) = 1
    ∧ win0_7.xsize (grid0.coords t) (0 : Fin 2) = 3
    ∧ win0_7.index t (1 : Fin 2) * 2048 + win0_7.xsize (grid0.coords t) (1 : Fin 2) ≤ 50000 :=
  (by decide +kernel : ∀ t : Fin grid0.N, _)

/-- The four whole-array windows sit at block index zero on both axes at every point. -/
private theorem whole_facts : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- An entry of a filled block at an index the transfer moves is the moved part's entry there, whatever the filler. -/
private theorem fill_of_lt {G : Pipeline.Grid} (w : Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Window.fill
  rw [dif_pos ((w.moved_iff i j).mpr h)]

/-- Row j of window 0's filled block at point t, j among the rows inside the array, is row P of the array, P the
    node the row stands for. -/
private theorem blk0_row (c : Dev nD) (t : Fin cfg0.N) (d0 : S2048x256.Idx → EReal) (j : Fin 2048) (P : Fin 50000)
    (hj : j.val < win0_7.xsize (grid0.coords t) (1 : Fin 2)) (hP : P.val = win0_7.index t (1 : Fin 2) * 2048 + j.val)
    (k : Fin 256) :
    win0_0.fill (grid0.coords t) d0 (iblk m c 0 t) (ix2 j k) = A0 m c (ix2 P k) := by
  obtain ⟨e0, e1, -, -, -, -, -, x0, x1, -⟩ := grid_facts t
  have hmv : ∀ a, ((ix2 j k : S2048x256.Idx) a).val < win0_0.xsize (grid0.coords t) a := fun a => by
    match a with
    | ⟨0, _⟩ => show j.val < win0_0.xsize (grid0.coords t) (0 : Fin 2); rw [x0]; exact hj
    | ⟨1, _⟩ => show k.val < win0_0.xsize (grid0.coords t) (1 : Fin 2); rw [x1]; exact k.isLt
  refine (fill_of_lt win0_0 (grid0.coords t) d0 (iblk m c 0 t) (ix2 j k) hmv).trans ?_
  show V m c main_call0_v20 ((win0_0.blk t).view.emb fun a => ⟨((ix2 j k : S2048x256.Idx) a).val, hmv a⟩)
    = V m c main_call0_v20 (ix2 P k)
  refine congrArg _ (funext fun a => Fin.ext ?_)
  match a with
  | ⟨0, _⟩ => show win0_0.index t (0 : Fin 2) * 2048 + 1 * j.val = P.val; rw [e0, hP]; omega
  | ⟨1, _⟩ => show win0_0.index t (1 : Fin 2) * 256 + 1 * k.val = k.val; rw [e1]; omega

/-- Likewise window 1's. -/
private theorem blk1_row (c : Dev nD) (t : Fin cfg0.N) (d1 : S2048x256.Idx → EReal) (j : Fin 2048) (P : Fin 50000)
    (hj : j.val < win0_7.xsize (grid0.coords t) (1 : Fin 2)) (hP : P.val = win0_7.index t (1 : Fin 2) * 2048 + j.val)
    (k : Fin 256) :
    win0_1.fill (grid0.coords t) d1 (iblk m c 1 t) (ix2 j k) = A1 m c (ix2 P k) := by
  obtain ⟨-, -, e0, e1, -, -, -, -, -, x0, x1, -⟩ := grid_facts t
  have hmv : ∀ a, ((ix2 j k : S2048x256.Idx) a).val < win0_1.xsize (grid0.coords t) a := fun a => by
    match a with
    | ⟨0, _⟩ => show j.val < win0_1.xsize (grid0.coords t) (0 : Fin 2); rw [x0]; exact hj
    | ⟨1, _⟩ => show k.val < win0_1.xsize (grid0.coords t) (1 : Fin 2); rw [x1]; exact k.isLt
  refine (fill_of_lt win0_1 (grid0.coords t) d1 (iblk m c 1 t) (ix2 j k) hmv).trans ?_
  show V m c main_call0_v10 ((win0_1.blk t).view.emb fun a => ⟨((ix2 j k : S2048x256.Idx) a).val, hmv a⟩)
    = V m c main_call0_v10 (ix2 P k)
  refine congrArg _ (funext fun a => Fin.ext ?_)
  match a with
  | ⟨0, _⟩ => show win0_1.index t (0 : Fin 2) * 2048 + 1 * j.val = P.val; rw [e0, hP]; omega
  | ⟨1, _⟩ => show win0_1.index t (1 : Fin 2) * 256 + 1 * k.val = k.val; rw [e1]; omega

/-- And the one-column window 2's. -/
private theorem blk2_row (c : Dev nD) (t : Fin cfg0.N) (d2 : S2048x1.Idx → EReal) (j : Fin 2048) (P : Fin 50000)
    (hj : j.val < win0_7.xsize (grid0.coords t) (1 : Fin 2)) (hP : P.val = win0_7.index t (1 : Fin 2) * 2048 + j.val) :
    win0_2.fill (grid0.coords t) d2 (iblk m c 2 t) (ix2 j (0 : Fin 1)) = A2 m c (ix2 P (0 : Fin 1)) := by
  obtain ⟨-, -, -, -, e0, e1, -, -, -, -, -, x0, x1, -⟩ := grid_facts t
  have hmv : ∀ a, ((ix2 j (0 : Fin 1) : S2048x1.Idx) a).val < win0_2.xsize (grid0.coords t) a := fun a => by
    match a with
    | ⟨0, _⟩ => show j.val < win0_2.xsize (grid0.coords t) (0 : Fin 2); rw [x0]; exact hj
    | ⟨1, _⟩ => show 0 < win0_2.xsize (grid0.coords t) (1 : Fin 2); rw [x1]; exact Nat.one_pos
  refine (fill_of_lt win0_2 (grid0.coords t) d2 (iblk m c 2 t) (ix2 j (0 : Fin 1)) hmv).trans ?_
  show V m c main_call0_v29 ((win0_2.blk t).view.emb fun a => ⟨((ix2 j (0 : Fin 1) : S2048x1.Idx) a).val, hmv a⟩)
    = V m c main_call0_v29 (ix2 P (0 : Fin 1))
  refine congrArg _ (funext fun a => Fin.ext ?_)
  match a with
  | ⟨0, _⟩ => show win0_2.index t (0 : Fin 2) * 2048 + 1 * j.val = P.val; rw [e0, hP]; omega
  | ⟨1, _⟩ => show win0_2.index t (1 : Fin 2) * 1 + 1 * 0 = 0; rw [e1]

/-- The four whole-array windows' blocks are their arrays. -/
private theorem iblk3_eq (c : Dev nD) (t : Fin cfg0.N) : iblk m c 3 t = A3 m c := by
  obtain ⟨e0, e1, -⟩ := whole_facts t
  funext y
  show V m c main_call0_v30 ((win0_3.blk t).view.emb y) = V m c main_call0_v30 y
  refine congrArg _ (funext fun a => Fin.ext ?_)
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega

private theorem iblk4_eq (c : Dev nD) (t : Fin cfg0.N) : iblk m c 4 t = A4 m c := by
  obtain ⟨-, -, e0, e1, -⟩ := whole_facts t
  funext y
  show V m c main_call0_v32 ((win0_4.blk t).view.emb y) = V m c main_call0_v32 y
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

private theorem iblk5_eq (c : Dev nD) (t : Fin cfg0.N) : iblk m c 5 t = A5 m c := by
  obtain ⟨-, -, -, -, e0, e1, -⟩ := whole_facts t
  funext y
  show V m c main_call0_v31 ((win0_5.blk t).view.emb y) = V m c main_call0_v31 y
  refine congrArg _ (funext fun a => Fin.ext ?_)
  match a with
  | ⟨0, _⟩ => show win0_5.index t (0 : Fin 2) * 3 + 1 * (y 0).val = (y 0).val; rw [e0]; omega
  | ⟨1, _⟩ => show win0_5.index t (1 : Fin 2) * 256 + 1 * (y 1).val = (y 1).val; rw [e1]; omega

private theorem iblk6_eq (c : Dev nD) (t : Fin cfg0.N) : iblk m c 6 t = A6 m c := by
  obtain ⟨-, -, -, -, -, -, e0, e1⟩ := whole_facts t
  funext y
  show V m c main_call0_v33 ((win0_6.blk t).view.emb y) = V m c main_call0_v33 y
  refine congrArg _ (funext fun a => Fin.ext ?_)
  match a with
  | ⟨0, _⟩ => show win0_6.index t (0 : Fin 2) * 3 + 1 * (y 0).val = (y 0).val; rw [e0]; omega
  | ⟨1, _⟩ => show win0_6.index t (1 : Fin 2) * 1 + 1 * (y 1).val = (y 1).val; rw [e1]; omega

/-- The body's value at class q and row j of the point's blocks, j among the rows inside the arrays, is the result's
    entry at class q and node P, P the node row j stands for: the payload is the head of the aggregated rows, every
    step of which is row-local, and row j of each filled block is row P of its array. -/
private theorem value_at (c : Dev nD) (t : Fin cfg0.N) (d0 d1 : S2048x256.Idx → EReal) (d2 : S2048x1.Idx → EReal)
    (q : Fin 3) (j : Fin 2048) (P : Fin 50000)
    (hj : j.val < win0_7.xsize (grid0.coords t) (1 : Fin 2)) (hP : P.val = win0_7.index t (1 : Fin 2) * 2048 + j.val) :
    k0_pay1 (F := Ideal) (win0_0.fill (grid0.coords t) d0 (iblk m c 0 t)) (win0_1.fill (grid0.coords t) d1 (iblk m c 1 t))
        (win0_2.fill (grid0.coords t) d2 (iblk m c 2 t)) (iblk m c 3 t) (iblk m c 4 t) (iblk m c 5 t) (iblk m c 6 t)
        (ix2 q j)
      = GT m c (ix2 q P) := by
  refine (Payload.pay_eq _ _ _ _ _ _ _ q j).trans ?_
  show _ = SageSpec.head (M := 50000) (K := 256) (H := 256) (C := 3)
    (SageSpec.aggMul (M := 50000) (K := 256) (A0 m c) (A1 m c) (A2 m c)) (A3 m c) (A4 m c) (A5 m c) (A6 m c) (ix2 P q)
  rw [iblk3_eq m c t, iblk4_eq m c t, iblk5_eq m c t, iblk6_eq m c t]
  refine SageSpec.head_rows _ _ _ _ _ _ j P (fun k => ?_) q
  exact SageSpec.aggMul_rows _ _ _ _ _ _ j P (fun k' => blk0_row m c t d0 j P hj hP k')
    (fun k' => blk1_row m c t d1 j P hj hP k') (blk2_row m c t d2 j P hj hP) k

/-- At a column y inside the result array, the body's value of the point's blocks — the three overhanging ones filled
    out past the array's end with ANY contents d0, d1, d2 — is the result's entry there. -/
theorem block_value (c : Dev nD) (t : Fin cfg0.N) (d0 d1 : S2048x256.Idx → EReal) (d2 : S2048x1.Idx → EReal)
    (y : (win0_7.xblock (grid0.coords t)).Idx) :
    k0_pay1 (F := Ideal) (win0_0.fill (grid0.coords t) d0 (iblk m c 0 t)) (win0_1.fill (grid0.coords t) d1 (iblk m c 1 t))
        (win0_2.fill (grid0.coords t) d2 (iblk m c 2 t)) (iblk m c 3 t) (iblk m c 4 t) (iblk m c 5 t) (iblk m c 6 t)
        (win0_7.xinj (grid0.coords t) y)
      = (win0_7.blk t).view.read (Elt Ideal) (GT m c) y := by
  obtain ⟨-, -, -, -, -, -, e70, -, -, -, -, -, -, x70, hin⟩ := grid_facts t
  -- y is a class and a column of the cut block; the column is a row of the 2048-row blocks and stands for a node
  have hy0 : (y 0).val < 3 := by
    have h : (y 0).val < win0_7.xsize (grid0.coords t) (0 : Fin 2) := (y 0).isLt
    rw [x70] at h; exact h
  have hy1 : (y 1).val < win0_7.xsize (grid0.coords t) (1 : Fin 2) := (y 1).isLt
  have hle : win0_7.xsize (grid0.coords t) (1 : Fin 2) ≤ 2048 := win0_7.xsize_le (grid0.coords t) (1 : Fin 2)
  have hj : (y 1).val < 2048 := Nat.lt_of_lt_of_le hy1 hle
  have hn : win0_7.index t (1 : Fin 2) * 2048 + (y 1).val < 50000 := by omega
  have hx : win0_7.xinj (grid0.coords t) y = ix2 (⟨(y 0).val, hy0⟩ : Fin 3) (⟨(y 1).val, hj⟩ : Fin 2048) := by
    funext a
    match a with
    | ⟨0, _⟩ => rfl
    | ⟨1, _⟩ => rfl
  have hi : (win0_7.blk t).view.emb y
      = ix2 (⟨(y 0).val, hy0⟩ : Fin 3) (⟨win0_7.index t (1 : Fin 2) * 2048 + (y 1).val, hn⟩ : Fin 50000) := by
    funext a; apply Fin.ext
    match a with
    | ⟨0, _⟩ => show win0_7.index t (0 : Fin 2) * 3 + 1 * (y 0).val = (y 0).val; rw [e70]; omega
    | ⟨1, _⟩ =>
      show win0_7.index t (1 : Fin 2) * 2048 + 1 * (y 1).val = win0_7.index t (1 : Fin 2) * 2048 + (y 1).val; omega
  rw [hx]
  refine (value_at m c t d0 d1 d2 ⟨(y 0).val, hy0⟩ ⟨(y 1).val, hj⟩ ⟨win0_7.index t (1 : Fin 2) * 2048 + (y 1).val, hn⟩ hy1 rfl).trans ?_
  show _ = GT m c ((win0_7.blk t).view.emb y)
  rw [hi]

/-- What the write-back at point t writes is the point's block of `GT`. -/
theorem flushed_eq (c : Dev nD) (t : Fin cfg0.N) :
    (dats m 0 c).flushed 7 t = ((cfg0.win 7).blk t).view.read (Elt Ideal) (GT m c) := by
  show (cfg0.win 7).cut (grid0.coords t) ((dats m 0 c).after 7 t) = _
  rw [after0_7]
  funext y
  unfold oblk blk0 blk1 blk2
  exact block_value m c t (fun _ => 0) (fun _ => 0) (fun _ => 0) y

end Cert.KernelIdeal.Run

end
-- ==== Proof.KerRun.lean ====
/-
  The idealized kernel's run with every staged array named: the body obligation at every grid point, the run of @main
  around the region, and the frame.

  What the body finds at point t: the three overhanging input buffers were just fetched, so each holds its block on
  the rows inside the array and anything (d0, d1, d2) on the others; the four whole-array buffers hold their arrays,
  fetched at this point or not; the result's buffer holds anything. The body leaves the inputs as found and the
  result's buffer at its value X of what the seven hold. What is owed back: for the three overhanging inputs the block
  on the rows inside the array only (they hold it, with the same d); for the four others the array; for the result
  the columns inside the array of the body's value of the zero-filled blocks — which are X's columns there, because
  at a column inside the array the value does not depend on what fills the input blocks out (`block_value`).
-/
import proofs.«408551_j67293547593882_3_alg».proof.Proof.KerFlush
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-! ## What the body finds -/

/-- The three overhanging input windows fetch at every point: the buffer holds the block on the rows inside the
    array, and d on the others. -/
private theorem before0_0 (c : Dev nD) (t : Fin cfg0.N) (d) :
    (dats m 0 c).before 0 t d = win0_0.fill (grid0.coords t) d (iblk m c 0 t) := by
  unfold Dat.before; rw [if_pos (fetch0_0 t)]; rfl
private theorem before0_1 (c : Dev nD) (t : Fin cfg0.N) (d) :
    (dats m 0 c).before 1 t d = win0_1.fill (grid0.coords t) d (iblk m c 1 t) := by
  unfold Dat.before; rw [if_pos (fetch0_1 t)]; rfl
private theorem before0_2 (c : Dev nD) (t : Fin cfg0.N) (d) :
    (dats m 0 c).before 2 t d = win0_2.fill (grid0.coords t) d (iblk m c 2 t) := by
  unfold Dat.before; rw [if_pos (fetch0_2 t)]; rfl
/-- The four whole-array windows hold their arrays at every point, fetched there or not. -/
private theorem before0_3 (c : Dev nD) (t : Fin cfg0.N) (d) : (dats m 0 c).before 3 t d = iblk m c 3 t :=
  before0_3_of m (dats m 0 c) (A_eq m c 3) (after0_3 m c) t d
private theorem before0_4 (c : Dev nD) (t : Fin cfg0.N) (d) : (dats m 0 c).before 4 t d = iblk m c 4 t :=
  before0_4_of m (dats m 0 c) (A_eq m c 4) (after0_4 m c) t d
private theorem before0_5 (c : Dev nD) (t : Fin cfg0.N) (d) : (dats m 0 c).before 5 t d = iblk m c 5 t :=
  before0_5_of m (dats m 0 c) (A_eq m c 5) (after0_5 m c) t d
private theorem before0_6 (c : Dev nD) (t : Fin cfg0.N) (d) : (dats m 0 c).before 6 t d = iblk m c 6 t :=
  before0_6_of m (dats m 0 c) (A_eq m c 6) (after0_6 m c) t d

/-! ## The result's buffer on the columns inside the array -/

/-- On the columns inside the result array the body's value of the point's blocks is the same whatever fills the
    overhanging input blocks out: both are the result's entries there. -/
private theorem out_cut_eq (c : Dev nD) (t : Fin cfg0.N) (d0 d1 : S2048x256.Idx → EReal) (d2 : S2048x1.Idx → EReal) :
    win0_7.cut (grid0.coords t)
        (k0_pay1 (F := Ideal) (win0_0.fill (grid0.coords t) d0 (iblk m c 0 t)) (win0_1.fill (grid0.coords t) d1 (iblk m c 1 t))
          (win0_2.fill (grid0.coords t) d2 (iblk m c 2 t)) (iblk m c 3 t) (iblk m c 4 t) (iblk m c 5 t) (iblk m c 6 t))
      = win0_7.cut (grid0.coords t) ((dats m 0 c).after 7 t) := by
  rw [after0_7]
  funext y
  show k0_pay1 (F := Ideal) (win0_0.fill (grid0.coords t) d0 (iblk m c 0 t)) (win0_1.fill (grid0.coords t) d1 (iblk m c 1 t))
      (win0_2.fill (grid0.coords t) d2 (iblk m c 2 t)) (iblk m c 3 t) (iblk m c 4 t) (iblk m c 5 t) (iblk m c 6 t)
      (win0_7.xinj (grid0.coords t) y) = oblk m c t (win0_7.xinj (grid0.coords t) y)
  unfold oblk blk0 blk1 blk2
  rw [block_value, block_value]

/-! ## The body obligation -/

/-- The body at any point: it runs on what the eight buffers hold to the inputs unchanged and the result's buffer at
    its value of them; each overhanging input is given back on the rows inside the array, each whole array as it is,
    and the result on the columns inside the array (`out_cut_eq`). -/
theorem body_obligation (c : Dev nD) : BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  rw [before0_0 m c t d0, before0_1 m c t d1, before0_2 m c t d2, before0_3 m c t d3, before0_4 m c t d4,
    before0_5 m c t d5, before0_6 m c t d6]
  iapply (Cert.KernelIdeal.Body.sound_kernel (F := Ideal) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (win0_6.stage (cfg0.slots t 6)) (hstage0_6 ((cfg0.slots t 6).cast nbuf0_6))
    (win0_7.stage (cfg0.slots t 7)) (hstage0_7 ((cfg0.slots t 7).cast nbuf0_7))
    (win0_0.fill (grid0.coords t) d0 (iblk m c 0 t)) (win0_1.fill (grid0.coords t) d1 (iblk m c 1 t))
    (win0_2.fill (grid0.coords t) d2 (iblk m c 2 t)) (iblk m c 3 t) (iblk m c 4 t) (iblk m c 5 t) (iblk m c 6 t) _)
  rw [Cert.KernelIdeal.Body.outBlk_eq]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]
  · iexists d0
    change _ ⊢ owns (c : Thread nD τ) (stage0_0 (cfg0.slots t 0)) fullShare
      (win0_0.fill (grid0.coords t) d0 (win0_0.cut (grid0.coords t) ((dats m 0 c).after 0 t)))
    rw [after0_0, blk0, Window.cut_fill]; try iexact H0
  isplitl [H1]
  · iexists d1
    change _ ⊢ owns (c : Thread nD τ) (stage0_1 (cfg0.slots t 1)) fullShare
      (win0_1.fill (grid0.coords t) d1 (win0_1.cut (grid0.coords t) ((dats m 0 c).after 1 t)))
    rw [after0_1, blk1, Window.cut_fill]; try iexact H1
  isplitl [H2]
  · iexists d2
    change _ ⊢ owns (c : Thread nD τ) (stage0_2 (cfg0.slots t 2)) fullShare
      (win0_2.fill (grid0.coords t) d2 (win0_2.cut (grid0.coords t) ((dats m 0 c).after 2 t)))
    rw [after0_2, blk2, Window.cut_fill]; try iexact H2
  isplitl [H3]; · rw [after0_3]; iexact H3
  isplitl [H4]; · rw [after0_4]; iexact H4
  isplitl [H5]; · rw [after0_5]; iexact H5
  isplitl [H6]; · rw [after0_6]; iexact H6
  iexists (k0_pay1 (F := Ideal) (win0_0.fill (grid0.coords t) d0 (iblk m c 0 t)) (win0_1.fill (grid0.coords t) d1 (iblk m c 1 t))
      (win0_2.fill (grid0.coords t) d2 (iblk m c 2 t)) (iblk m c 3 t) (iblk m c 4 t) (iblk m c 5 t) (iblk m c 6 t))
  change _ ⊢ owns (c : Thread nD τ) (stage0_7 (cfg0.slots t 7)) fullShare
    (win0_7.fill (grid0.coords t) (k0_pay1 (F := Ideal) (win0_0.fill (grid0.coords t) d0 (iblk m c 0 t)) (win0_1.fill (grid0.coords t) d1 (iblk m c 1 t))
      (win0_2.fill (grid0.coords t) d2 (iblk m c 2 t)) (iblk m c 3 t) (iblk m c 4 t) (iblk m c 5 t) (iblk m c 6 t))
      (win0_7.cut (grid0.coords t) ((dats m 0 c).after 7 t)))
  rw [win0_7.fill_congr_cut (grid0.coords t) (out_cut_eq m c t d0 d1 d2)]; try iexact H7

/-! ## The run -/

-- the run's implicit arguments are found by unifying its conclusion with this one, which takes unfolding plain
-- definitions in a metavariable's type
set_option backward.isDefEq.respectTransparency.types false in
/-- From any memory with zero counters every weakly fair execution of @main terminates, with every array of the pipeline
    at what the proof data computes and every other buffer as the host line after the region leaves it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Run

end
-- ==== Proof.KerHost.lean ====
/-
  The seven arrays the kernel's region stages are, as functions of @main's arguments, the reference program's own
  stages: the host lines before the region are the reference's first lines (the gather of the sampled node rows, the
  gather of the message rows, the two accumulating scatters, the count plus one), followed by a reciprocal, two
  changes of float format and two reshapes. Stated at any float instance, where the two programs' lines are one term.
-/
import proofs.«408551_j67293547593882_3_alg».proof.Proof.Gen.KernelIdeal.Frame
import proofs.«408551_j67293547593882_3_alg».proof.Proof.RefRead
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 2000000 in
/-- The summed messages: the reference's accumulating scatter of the gathered message rows. -/
theorem V_v20 (c : Dev nD) : V m c main_call0_v20
    = Cert.ReferenceIdeal.ReadP.val_main_v20 (F := F) (m ((c : Thread nD τ).loc main_arg0)) (m ((c : Thread nD τ).loc main_arg1))
        (m ((c : Thread nD τ).loc main_arg2)) := by
  show StableHlo.after hostOps0 (fun b => m (c, b)) (Proc.devRef .tc main_call0_v20) = _
  after_results
  rfl

/-- The sampled node rows: the reference's gather. -/
theorem V_v10 (c : Dev nD) : V m c main_call0_v10
    = Cert.ReferenceIdeal.ReadP.val_main_v6 (F := F) (m ((c : Thread nD τ).loc main_arg0)) (m ((c : Thread nD τ).loc main_arg1)) := by
  show StableHlo.after hostOps0 (fun b => m (c, b)) (Proc.devRef .tc main_call0_v10) = _
  after_results
  rfl

/-- The reciprocal column: one over the reference's count plus one, as a column. -/
theorem V_v29 (c : Dev nD) : V m c main_call0_v29
    = shapeCast S50000x1 (Host.divf (broadcastInDim S50000 ![] bcast_S_S50000 (constant (F := F) S_ .f32 0x3F800000#32))
        (Cert.ReferenceIdeal.ReadP.val_main_v27 (F := F) (m ((c : Thread nD τ).loc main_arg2)))) shapeCasts_S50000_S50000x1 := by
  show StableHlo.after hostOps0 (fun b => m (c, b)) (Proc.devRef .tc main_call0_v29) = _
  after_results
  rfl

/-- The layer's weights in the narrower float format. -/
theorem V_v30 (c : Dev nD) : V m c main_call0_v30 = truncf .bf16 (m ((c : Thread nD τ).loc main_arg3)) bitsLt_bf16_f32 := by
  show StableHlo.after hostOps0 (fun b => m (c, b)) (Proc.devRef .tc main_call0_v30) = _
  after_results
  rfl

/-- The classifier's weights in the narrower float format. -/
theorem V_v31 (c : Dev nD) : V m c main_call0_v31 = truncf .bf16 (m ((c : Thread nD τ).loc main_arg5)) bitsLt_bf16_f32 := by
  show StableHlo.after hostOps0 (fun b => m (c, b)) (Proc.devRef .tc main_call0_v31) = _
  after_results
  rfl

/-- The layer's bias as one row. -/
theorem V_v32 (c : Dev nD) : V m c main_call0_v32 = shapeCast S1x256 (m ((c : Thread nD τ).loc main_arg4)) shapeCasts_S256_S1x256 := by
  show StableHlo.after hostOps0 (fun b => m (c, b)) (Proc.devRef .tc main_call0_v32) = _
  after_results
  rfl

/-- The classifier's bias as one column. -/
theorem V_v33 (c : Dev nD) : V m c main_call0_v33 = shapeCast S3x1 (m ((c : Thread nD τ).loc main_arg6)) shapeCasts_S3_S3x1 := by
  show StableHlo.after hostOps0 (fun b => m (c, b)) (Proc.devRef .tc main_call0_v33) = _
  after_results
  rfl

end Cert.KernelIdeal.Host

end
-- ==== Proof.RefValue.lean ====
/-
  The reference program's result as the head of the aggregated node rows.

  The reference divides the sum of the scattered and the gathered rows by the edge counts plus one, applies the
  layer and the classifier, and normalises each row in log space. Read at the extended reals every host step is the
  plain function of indices: a broadcast reads its operand with the broadcast coordinate dropped, a contraction is
  the matrix product, 0 + x = x and max ⊥ x = x. The count is a sum of ones from zero, so the divisor is at least one.
-/
import proofs.«408551_j67293547593882_3_alg».proof.Proof.RefRead
import proofs.«408551_j67293547593882_3_alg».proof.Proof.Spec
import Idealize.ShloMosaic.PureOps.IdealRules

set_option maxRecDepth 16384

noncomputable section

open scoped BigOperators

namespace Cert.ReferenceIdeal.RefValue

open Cert.ReferenceIdeal Cert.ReferenceIdeal.Gen Cert.ReferenceIdeal.ReadP
open Idealize.ShloMosaic Idealize.ShloMosaic.ValueIdx DenseRows SageSpec

/-- The word 0x3F800000 denotes one. -/
private theorem ofBits_one_f32 : Ideal.ofBits .f32 0x3F800000#32 = (1 : EReal) :=
  IdealRules.sign_bit.ideal_onePat .f32

/-- A column broadcast across the row reads, at (p, q), the column at p. -/
private theorem bcCol_apply {m n : Nat} (y : Mat m 1)
    (h2 : (⟨2, ![m, 1]⟩ : Shape).BroadcastsInDim ⟨2, ![m, n]⟩ ![0, 1]) (p : Fin m) (q : Fin n) :
    broadcastInDim (⟨2, ![m, n]⟩ : Shape) ![0, 1] h2 y (ix2 p q) = y (ix2 p (0 : Fin 1)) :=
  broadcastInDim_apply ![0, 1] h2 y (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])

/-- A vector broadcast to a column reads, at (p, 0), the vector at p. -/
private theorem bcVec_apply {m : Nat} (v : Col m)
    (h1 : (⟨1, ![m]⟩ : Shape).BroadcastsInDim ⟨2, ![m, 1]⟩ ![0]) (p : Fin m) :
    broadcastInDim (⟨2, ![m, 1]⟩ : Shape) ![0] h1 v (ix2 p (0 : Fin 1)) = v (ix1 p) :=
  broadcastInDim_apply ![0] h1 v (ix2 p (0 : Fin 1)) (ix1 p) (fun ax => by
    match ax with
    | ⟨0, _⟩ =>
      show p.val = if m = 1 then 0 else p.val
      split
      · have := p.isLt; omega
      · rfl)

/-- The host's log-softmax of a matrix: the reduce with a maximum body (and one more maximum with minus infinity), the
    two broadcasts, the subtraction, the exponential, the sum kept as a column, its logarithm, the broadcast across
    the row, the subtraction. -/
private theorem logSoftmax_host_form {m n : Nat} (Z : Mat m n)
    (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel)
    (h0 : (⟨0, ![]⟩ : Shape).BroadcastsInDim ⟨1, ![m]⟩ ![])
    (h1 : (⟨1, ![m]⟩ : Shape).BroadcastsInDim ⟨2, ![m, 1]⟩ ![0])
    (h2 : (⟨2, ![m, 1]⟩ : Shape).BroadcastsInDim ⟨2, ![m, n]⟩ ![0, 1]) :
    subf
      (subf Z (broadcastInDim (⟨2, ![m, n]⟩ : Shape) ![0, 1] h2 (broadcastInDim (⟨2, ![m, 1]⟩ : Shape) ![0] h1
        (maximumf (broadcastInDim (⟨1, ![m]⟩ : Shape) ![] h0 (constant (F := Ideal) (⟨0, ![]⟩ : Shape) .f32 0xFF800000#32))
          (Host.reduce FloatOps.maximumf Z (constant (F := Ideal) (⟨0, ![]⟩ : Shape) .f32 0xFF800000#32) h' hu)))))
      (broadcastInDim (⟨2, ![m, n]⟩ : Shape) ![0, 1] h2 (Host.log (broadcastInDim (⟨2, ![m, 1]⟩ : Shape) ![0] h1
        (Host.reduceAdd
          (Host.exp (subf Z (broadcastInDim (⟨2, ![m, n]⟩ : Shape) ![0, 1] h2 (broadcastInDim (⟨2, ![m, 1]⟩ : Shape) ![0] h1
            (maximumf (broadcastInDim (⟨1, ![m]⟩ : Shape) ![] h0 (constant (F := Ideal) (⟨0, ![]⟩ : Shape) .f32 0xFF800000#32))
              (Host.reduce FloatOps.maximumf Z (constant (F := Ideal) (⟨0, ![]⟩ : Shape) .f32 0xFF800000#32) h' hu))))))
          (constant (F := Ideal) (⟨0, ![]⟩ : Shape) .f32 0x00000000#32) h' hu))))
      = logSoftmaxRows Z := by
  have hD : subf Z (broadcastInDim (⟨2, ![m, n]⟩ : Shape) ![0, 1] h2 (broadcastInDim (⟨2, ![m, 1]⟩ : Shape) ![0] h1
      (maximumf (broadcastInDim (⟨1, ![m]⟩ : Shape) ![] h0 (constant (F := Ideal) (⟨0, ![]⟩ : Shape) .f32 0xFF800000#32))
        (Host.reduce FloatOps.maximumf Z (constant (F := Ideal) (⟨0, ![]⟩ : Shape) .f32 0xFF800000#32) h' hu))))
      = (fun i => Z i - rowMax Z (i 0) : Mat m n) := by
    funext i
    obtain ⟨p, q, rfl⟩ : ∃ (p : Fin m) (q : Fin n), i = ix2 p q := ⟨i 0, i 1, eq_ix2 i⟩
    show Z (ix2 p q) - broadcastInDim (⟨2, ![m, n]⟩ : Shape) ![0, 1] h2 (broadcastInDim (⟨2, ![m, 1]⟩ : Shape) ![0] h1
      (maximumf (broadcastInDim (⟨1, ![m]⟩ : Shape) ![] h0 (constant (F := Ideal) (⟨0, ![]⟩ : Shape) .f32 0xFF800000#32))
        (Host.reduce FloatOps.maximumf Z (constant (F := Ideal) (⟨0, ![]⟩ : Shape) .f32 0xFF800000#32) h' hu))) (ix2 p q)
        = Z (ix2 p q) - rowMax Z p
    rw [column_host_form]
    show Z (ix2 p q) - max (Ideal.ofBits .f32 0xFF800000#32)
      (Host.reduce FloatOps.maximumf Z (constant (F := Ideal) (⟨0, ![]⟩ : Shape) .f32 0xFF800000#32) h' hu (ix1 p)) = _
    rw [ofBits_neg_inf, hostMax_eq_rowMax Z h' h hu, max_bot_left]
  rw [hD]
  funext i
  obtain ⟨p, q, rfl⟩ : ∃ (p : Fin m) (q : Fin n), i = ix2 p q := ⟨i 0, i 1, eq_ix2 i⟩
  show (Z (ix2 p q) - rowMax Z p) - broadcastInDim (⟨2, ![m, n]⟩ : Shape) ![0, 1] h2 (Host.log (broadcastInDim (⟨2, ![m, 1]⟩ : Shape) ![0] h1
      (Host.reduceAdd (Host.exp (fun i => Z i - rowMax Z (i 0) : Mat m n))
        (constant (F := Ideal) (⟨0, ![]⟩ : Shape) .f32 0x00000000#32) h' hu))) (ix2 p q)
    = (Z (ix2 p q) - rowMax Z p) - Ideal.log (∑ c : Fin n, rowExp Z (ix2 p c))
  rw [bcCol_apply]
  show (Z (ix2 p q) - rowMax Z p) - Ideal.log (broadcastInDim (⟨2, ![m, 1]⟩ : Shape) ![0] h1
      (Host.reduceAdd (Host.exp (fun i => Z i - rowMax Z (i 0) : Mat m n))
        (constant (F := Ideal) (⟨0, ![]⟩ : Shape) .f32 0x00000000#32) h' hu) (ix2 p (0 : Fin 1))) = _
  rw [bcVec_apply, hostSum_eq_rowSum _ h' h hu]
  rfl

/-- The host's quotient of a sum of two matrices by a vector broadcast to a column and across the row: the rows of
    the sum divided by the vector's entries. -/
private theorem aggDiv_host_form {M K : Nat} (S X : Mat M K) (Dv : Col M)
    (h1 : (⟨1, ![M]⟩ : Shape).BroadcastsInDim ⟨2, ![M, 1]⟩ ![0])
    (h2 : (⟨2, ![M, 1]⟩ : Shape).BroadcastsInDim ⟨2, ![M, K]⟩ ![0, 1]) :
    Host.divf (F := Ideal) (addf S X)
        (broadcastInDim (⟨2, ![M, K]⟩ : Shape) ![0, 1] h2 (broadcastInDim (⟨2, ![M, 1]⟩ : Shape) ![0] h1 Dv))
      = aggDiv S X Dv := by
  funext i
  obtain ⟨p, k, rfl⟩ : ∃ (p : Fin M) (k : Fin K), i = ix2 p k := ⟨i 0, i 1, eq_ix2 i⟩
  show Ideal.div (S (ix2 p k) + X (ix2 p k))
      (broadcastInDim (⟨2, ![M, K]⟩ : Shape) ![0, 1] h2 (broadcastInDim (⟨2, ![M, 1]⟩ : Shape) ![0] h1 Dv) (ix2 p k))
    = Ideal.div (S (ix2 p k) + X (ix2 p k)) (Dv (ix1 p))
  rw [column_host_form]

/-- The two generated contraction records are the plain m×k by k×n contraction. -/
private theorem dot1_plain : dot_S50000x256_S256x256_S50000x256_1_0_0_1_n_n = DotDims.plain 50000 256 256 := rfl
private theorem dot2_plain : dot_S50000x256_S256x3_S50000x3_1_0_0_1_n_n = DotDims.plain 50000 256 3 := rfl

/-- The aggregated rows: the sum of the scattered and the gathered rows over the counts. -/
private theorem v30_eq (x0 : (⟨S100000x256, .f32⟩ : BufTy).Contents (Elt Ideal)) (x1 : (⟨S50000, .i32⟩ : BufTy).Contents (Elt Ideal))
    (x2 : (⟨S2x300000, .i32⟩ : BufTy).Contents (Elt Ideal)) :
    val_main_v30 (F := Ideal) x0 x1 x2
      = aggDiv (M := 50000) (K := 256) (val_main_v20 (F := Ideal) x0 x1 x2) (val_main_v6 (F := Ideal) x0 x1) (val_main_v27 (F := Ideal) x2) := by
  unfold val_main_v30 val_main_v21 val_main_v29 val_main_v28
  generalize val_main_v20 (F := Ideal) x0 x1 x2 = S
  generalize val_main_v6 (F := Ideal) x0 x1 = X
  generalize val_main_v27 (F := Ideal) x2 = Dv
  exact aggDiv_host_form (M := 50000) (K := 256) S X Dv bcast_S50000_S50000x1_0 bcast_S50000x1_S50000x256_0_1

/-- The layer: the aggregated rows times the weights, plus the bias row. -/
private theorem v34_eq (x0 : (⟨S100000x256, .f32⟩ : BufTy).Contents (Elt Ideal)) (x1 : (⟨S50000, .i32⟩ : BufTy).Contents (Elt Ideal))
    (x2 : (⟨S2x300000, .i32⟩ : BufTy).Contents (Elt Ideal)) (x3 : (⟨S256x256, .f32⟩ : BufTy).Contents (Elt Ideal))
    (x4 : (⟨S256, .f32⟩ : BufTy).Contents (Elt Ideal)) :
    val_main_v34 (F := Ideal) x0 x1 x2 x3 x4
      = addRow (m := 50000) (n := 256) (mm (m := 50000) (k := 256) (n := 256) (val_main_v30 (F := Ideal) x0 x1 x2) x3) (asRow x4) := by
  unfold val_main_v34 val_main_v33 val_main_v32 val_main_v31
  generalize val_main_v30 (F := Ideal) x0 x1 x2 = A
  rw [broadcastInDim_asRow x4 bcast_S256_S1x256_1, dot1_plain, dotGeneral_plain_eq_mm]
  exact bias_host_form (m := 50000) (n := 256) _ _ bcast_S1x256_S50000x256_0_1

/-- The transposed classifier weights. -/
private theorem v35_eq (x5 : (⟨S3x256, .f32⟩ : BufTy).Contents (Elt Ideal)) :
    val_main_v35 (F := Ideal) x5 = tr (m := 3) (n := 256) x5 := by
  funext i
  rw [val_main_v35_apply]
  exact congrArg x5 (funext fun a => by match a with | ⟨0, _⟩ => rfl | ⟨1, _⟩ => rfl)

/-- The classifier: the layer's rows times the transposed weights, plus the bias row. -/
private theorem v39_eq (x0 : (⟨S100000x256, .f32⟩ : BufTy).Contents (Elt Ideal)) (x1 : (⟨S50000, .i32⟩ : BufTy).Contents (Elt Ideal))
    (x2 : (⟨S2x300000, .i32⟩ : BufTy).Contents (Elt Ideal)) (x3 : (⟨S256x256, .f32⟩ : BufTy).Contents (Elt Ideal))
    (x4 : (⟨S256, .f32⟩ : BufTy).Contents (Elt Ideal)) (x5 : (⟨S3x256, .f32⟩ : BufTy).Contents (Elt Ideal))
    (x6 : (⟨S3, .f32⟩ : BufTy).Contents (Elt Ideal)) :
    val_main_v39 (F := Ideal) x0 x1 x2 x3 x4 x5 x6
      = addRow (m := 50000) (n := 3) (mm (m := 50000) (k := 256) (n := 3) (val_main_v34 (F := Ideal) x0 x1 x2 x3 x4) (tr (m := 3) (n := 256) x5))
          (colAsRow (asCol x6)) := by
  unfold val_main_v39 val_main_v38 val_main_v37 val_main_v36
  rw [v35_eq x5]
  generalize val_main_v34 (F := Ideal) x0 x1 x2 x3 x4 = B
  rw [broadcastInDim_asRow x6 bcast_S3_S1x3_1, dot2_plain, dotGeneral_plain_eq_mm, colAsRow_asCol]
  exact bias_host_form (m := 50000) (n := 3) _ _ bcast_S1x3_S50000x3_0_1

/-- The inlined row-wise log-softmax of the class scores. -/
private theorem v40_eq (x0 : (⟨S100000x256, .f32⟩ : BufTy).Contents (Elt Ideal)) (x1 : (⟨S50000, .i32⟩ : BufTy).Contents (Elt Ideal))
    (x2 : (⟨S2x300000, .i32⟩ : BufTy).Contents (Elt Ideal)) (x3 : (⟨S256x256, .f32⟩ : BufTy).Contents (Elt Ideal))
    (x4 : (⟨S256, .f32⟩ : BufTy).Contents (Elt Ideal)) (x5 : (⟨S3x256, .f32⟩ : BufTy).Contents (Elt Ideal))
    (x6 : (⟨S3, .f32⟩ : BufTy).Contents (Elt Ideal)) :
    val_main_v40 (F := Ideal) x0 x1 x2 x3 x4 x5 x6
      = logSoftmaxRows (m := 50000) (n := 3) (val_main_v39 (F := Ideal) x0 x1 x2 x3 x4 x5 x6) := by
  unfold val_main_v40 val_main_call0_v10 val_main_call0_v9 val_main_call0_v8 val_main_call0_v7 val_main_call0_v6
    val_main_call0_v5 val_main_call0_v4 val_main_call0_v3 val_main_call0_v2 val_main_call0_v1 val_main_call0_v0
    val_main_call0_cst val_main_call0_cst_0 val_main_call0_cst_1
  generalize val_main_v39 (F := Ideal) x0 x1 x2 x3 x4 x5 x6 = Z
  exact logSoftmax_host_form (m := 50000) (n := 3) Z reducesTo_S50000x3_S50000_d1 (by decide) h_S_ bcast_S_S50000
    bcast_S50000_S50000x1_0 bcast_S50000x1_S50000x3_0_1

/-- The count of a node's incoming edges plus one is not zero. -/
theorem cnt_ne_zero (x2 : (⟨S2x300000, .i32⟩ : BufTy).Contents (Elt Ideal)) (p : Fin 50000) :
    val_main_v27 (F := Ideal) x2 (ix1 p) ≠ 0 := by
  -- the stage is 0 + (a sum of ones) + 1
  have h23 : ∀ i, val_main_v23 (F := Ideal) i = (0 : EReal) := fun i => by
    rw [val_main_v23_apply, val_main_cst_4_apply]; exact Ideal.ofBits_zero_f32
  have h22 : ∀ j, val_main_v22 (F := Ideal) j = (1 : EReal) := fun j => by
    rw [val_main_v22_apply, val_main_cst_3_apply]; exact ofBits_one_f32
  have h26 : val_main_v26 (F := Ideal) (ix1 p) = (1 : EReal) := by
    rw [val_main_v26_apply, val_main_cst_5_apply]; exact ofBits_one_f32
  have h25 : (0 : EReal) ≤ val_main_v25 (F := Ideal) x2 (ix1 p) := by
    unfold val_main_v25 Host.scatterAdd
    generalize val_main_v24 (F := Ideal) x2 = idx
    rw [Ideal.hostScatterAdd_def]
    unfold Ideal.hostScatterAdd
    rw [h23, zero_add]
    exact Finset.sum_nonneg fun j _ => by rw [h22]; exact zero_le_one
  rw [val_main_v27_apply, h26, Ideal.addf_def]
  exact ne_of_gt (lt_of_lt_of_le zero_lt_one (le_add_of_nonneg_left h25))

theorem ref_eq (x0 : (⟨S100000x256, .f32⟩ : BufTy).Contents (Elt Ideal)) (x1 : (⟨S50000, .i32⟩ : BufTy).Contents (Elt Ideal))
    (x2 : (⟨S2x300000, .i32⟩ : BufTy).Contents (Elt Ideal)) (x3 : (⟨S256x256, .f32⟩ : BufTy).Contents (Elt Ideal))
    (x4 : (⟨S256, .f32⟩ : BufTy).Contents (Elt Ideal)) (x5 : (⟨S3x256, .f32⟩ : BufTy).Contents (Elt Ideal))
    (x6 : (⟨S3, .f32⟩ : BufTy).Contents (Elt Ideal)) :
    val_main_v40 (F := Ideal) x0 x1 x2 x3 x4 x5 x6
      = head (M := 50000) (K := 256) (H := 256) (C := 3)
          (aggDiv (M := 50000) (K := 256) (val_main_v20 (F := Ideal) x0 x1 x2) (val_main_v6 (F := Ideal) x0 x1) (val_main_v27 (F := Ideal) x2))
          x3 (asRow x4) x5 (asCol x6) := by
  unfold head
  rw [v40_eq, v39_eq, v34_eq, v30_eq]

end Cert.ReferenceIdeal.RefValue

end
-- ==== Proof.KerFinal.lean ====
/-
  The idealized kernel's result as one function of @main's arguments.

  The 25 blocks of the result array — columns 2048 t … 2048 t + 2047, the last one cut at column 50000 — cover it,
  and each write-back writes its block of `GT`; so the array ends at `GT`. The one host line after the region
  transposes it: the program's result, entry (n, q), is the head of the aggregated node rows at (n, q) (`HK`).
  Read through the host lines before the region (KerHost) the seven staged arrays are the reference's own stages of the
  arguments: the summed messages, the sampled rows, the reciprocal of the count plus one as a column — so that
  multiplying by it is dividing by the count plus one, which is never zero —, the weights unchanged by the change of
  float format, the biases as a row and as a column (`HK_eq`).
-/
import proofs.«408551_j67293547593882_3_alg».proof.Proof.KerRun
import proofs.«408551_j67293547593882_3_alg».proof.Proof.KerHost
import proofs.«408551_j67293547593882_3_alg».proof.Proof.RefValue
import Idealize.ShloMosaic.Lib.ValueLayout
import Idealize.ShloMosaic.Lib.Pipeline.Value

set_option maxRecDepth 16384

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.RA Idealize.SL.Sem
open Idealize.ShloMosaic.Pipeline (Dat Cfg Window)
open DenseRows SageSpec

variable (m : (ℓ : Loc nD τ sig) → Buf (Elt Ideal) ℓ) (ρ : Dev nD → PrngReg)

/-! ## The result array after the region -/

/-- The result window's blocks, decided over the grid: all three rows; columns from 2048 t, 2048 of them or what is left. -/
theorem idx7 : ∀ t : Fin cfg0.N, win0_7.index t 0 * win0_7.size 0 = 0 ∧ win0_7.xsize (grid0.coords t) 0 = 3
    ∧ win0_7.index t 1 * win0_7.size 1 = 2048 * t.val ∧ win0_7.xsize (grid0.coords t) 1 = min 2048 (50000 - 2048 * t.val) :=
  (by decide +kernel : ∀ t : Fin grid0.N, win0_7.index t 0 * win0_7.size 0 = 0 ∧ win0_7.xsize (grid0.coords t) 0 = 3
    ∧ win0_7.index t 1 * win0_7.size 1 = 2048 * t.val ∧ win0_7.xsize (grid0.coords t) 1 = min 2048 (50000 - 2048 * t.val))

/-- An entry of the array is in point t's block iff its column is among the block's columns inside the array. -/
theorem mem_blk7 (t : Fin cfg0.N) (i : S3x50000.Idx) :
    i ∈ (win0_7.blk t).view.set ↔ 2048 * t.val ≤ (i 1 : Nat) ∧ (i 1 : Nat) < 2048 * t.val + min 2048 (50000 - 2048 * t.val) := by
  show i ∈ ((View.whole main_call0_v34).slice (win0_7.rect t)).set ↔ _
  rw [View.set_slice_whole, Rect.mem_set_unit]
  obtain ⟨e0, e1, e2, e3⟩ := idx7 t
  have h0 : (i 0 : Nat) < 3 := (i 0).isLt
  constructor
  · intro h
    have h1 := h 1
    change win0_7.index t 1 * win0_7.size 1 ≤ (i 1 : Nat) ∧ (i 1 : Nat) < win0_7.index t 1 * win0_7.size 1 + win0_7.xsize (grid0.coords t) 1 at h1
    rw [e2, e3] at h1; exact h1
  · intro h a
    match a with
    | ⟨0, _⟩ =>
      change win0_7.index t 0 * win0_7.size 0 ≤ (i 0 : Nat) ∧ (i 0 : Nat) < win0_7.index t 0 * win0_7.size 0 + win0_7.xsize (grid0.coords t) 0
      rw [e0, e1]; omega
    | ⟨1, _⟩ =>
      change win0_7.index t 1 * win0_7.size 1 ≤ (i 1 : Nat) ∧ (i 1 : Nat) < win0_7.index t 1 * win0_7.size 1 + win0_7.xsize (grid0.coords t) 1
      rw [e2, e3]; exact h

/-- Every entry of the result array is in the block of the point its column falls in. -/
theorem cover7 (i : S3x50000.Idx) : ∃ t : Fin cfg0.N, (cfg0.win 7).flush t = true ∧ i ∈ ((cfg0.win 7).blk t).view.set := by
  have hi : (i 1 : Nat) < 50000 := (i 1).isLt
  refine ⟨⟨(i 1 : Nat) / 2048, lt_of_lt_of_eq (by omega : (i 1 : Nat) / 2048 < 25) N_0.symm⟩, flush0_7 _, ?_⟩
  refine (mem_blk7 _ i).mpr ?_
  show 2048 * ((i 1 : Nat) / 2048) ≤ (i 1 : Nat) ∧ (i 1 : Nat) < 2048 * ((i 1 : Nat) / 2048) + min 2048 (50000 - 2048 * ((i 1 : Nat) / 2048))
  omega

/-- The result array after the region. -/
theorem final7 (c : Dev nD) : (dats m 0 c).arrAt 7 cfg0.N = GT m c :=
  (dats m 0 c).arrAt_eq_of_cover 7 (GT m c) (fun t _ => flushed_eq m c t) cover7

/-! ## The host line after the region -/

/-- The head of the aggregated node rows, over the staged arrays. -/
def HK (c : Dev nD) : Mat 50000 3 :=
  head (M := 50000) (K := 256) (H := 256) (C := 3)
    (aggMul (M := 50000) (K := 256) (A0 m c) (A1 m c) (A2 m c)) (A3 m c) (A4 m c) (A5 m c) (A6 m c)

theorem transpose_GT (c : Dev nD) : transpose S50000x3 [1, 0] (GT m c) transposes_S3x50000_S50000x3_1_0 = HK m c := by
  funext i
  obtain ⟨n, q, rfl⟩ : ∃ (n : Fin 50000) (q : Fin 3), i = ix2 n q := ⟨i 0, i 1, eq_ix2 i⟩
  rw [transpose_ix2_apply]
  rfl

/-- The program's result after the host line that follows the region. -/
theorem tail_v0 (c : Dev nD) : Pipeline.afterTail₀ cfgs (dats m) 0 (V0 m) [hostOps1] c main_v0 = HK m c := by
  unfold Pipeline.afterTail₀
  show StableHlo.after hostOps1 _ (Proc.devRef .tc main_v0) = _
  after_results
  have e : Pipeline.withArrays spec0 c (V0 m c) (fun w => (dats m 0 c).arrAt w (cfgs 0).N) (Proc.devRef .tc (Pipeline.arrRef spec0 7))
      = GT m c :=
    (Pipeline.withArrays_arr spec0 launch0.win.arr_inj c (V0 m c) (fun w => (dats m 0 c).arrAt w (cfgs 0).N) 7).trans (final7 m c)
  exact (congrArg (fun x => transpose S50000x3 [1, 0] x transposes_S3x50000_S50000x3_1_0) e).trans (transpose_GT m c)

/-! ## The run with the result named, and the frame -/

/-- Every weakly fair execution of the idealized kernel ends with the result at `HK` and the arguments as they were. -/
theorem value_run : θ_run defs (onTc (τ := τ) (main (F := Ideal))) ⟨m, fun _ => 0, ρ⟩ (fun r => ∀ c : Dev nD,
      r.2.mem ((c.tc : Thread nD τ).loc main_v0) = HK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v0 (Pipeline.mem_restRefs_of main_v0 (by decide) (by decide))).trans (tail_v0 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

/-- The idealized kernel's frame: the run, read at the argument arrays. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-! ## The staged arrays as the reference's stages of the arguments -/

/-- The word 1.0 denotes the real 1. -/
theorem ofBits_one : Ideal.ofBits .f32 0x3F800000#32 = (1 : EReal) := IdealRules.sign_bit.ideal_onePat .f32

/-- A change of float format is the identity on extended reals. -/
theorem A3_eq (c : Dev nD) : A3 m c = m ((c : Thread nD τ).loc main_arg3) := by
  show V m c main_call0_v30 = _
  rw [Host.V_v30]; rfl
theorem A5_eq (c : Dev nD) : A5 m c = m ((c : Thread nD τ).loc main_arg5) := by
  show V m c main_call0_v31 = _
  rw [Host.V_v31]; rfl

/-- The layer's bias, cast to one row, is that row. -/
theorem A4_eq (c : Dev nD) : A4 m c = asRow (m ((c : Thread nD τ).loc main_arg4)) := by
  show V m c main_call0_v32 = _
  rw [Host.V_v32]
  exact shapeCast_asRow _ _

/-- The classifier's bias, cast to one column, is that column. -/
theorem A6_eq (c : Dev nD) : A6 m c = asCol (m ((c : Thread nD τ).loc main_arg6)) := by
  show V m c main_call0_v33 = _
  rw [Host.V_v33]
  funext i
  obtain ⟨p, u, rfl⟩ : ∃ (p : Fin 3) (u : Fin 1), i = ix2 p u := ⟨i 0, i 1, eq_ix2 i⟩
  exact shapeCast_apply _ shapeCasts_S3_S3x1 _ (ix1 p) (by
    rw [Shape.rowMajor_val_one, Shape.rowMajor_val_two]
    show p.val = p.val * 1 + u.val
    have := u.isLt; omega)

/-- One over a vector of divisors, cast to a column, reads at row p one over the divisor at p. -/
theorem recip_col (D : FVec Ideal S50000 .f32) (p : Fin 50000) :
    shapeCast S50000x1 (Host.divf (broadcastInDim S50000 ![] bcast_S_S50000 (constant (F := Ideal) S_ .f32 0x3F800000#32)) D)
        shapeCasts_S50000_S50000x1 (ix2 p (0 : Fin 1))
      = Ideal.div 1 (D (ix1 p)) := by
  rw [shapeCast_apply _ shapeCasts_S50000_S50000x1 (ix2 p (0 : Fin 1)) (ix1 p) (by
    rw [Shape.rowMajor_val_one, Shape.rowMajor_val_two]
    show p.val = p.val * 1 + 0
    omega)]
  have hb : broadcastInDim S50000 ![] bcast_S_S50000 (constant (F := Ideal) S_ .f32 0x3F800000#32) (ix1 p) = (1 : EReal) := by
    rw [broadcastInDim_apply _ bcast_S_S50000 _ (ix1 p) (fun a => a.elim0) (fun a => a.elim0)]
    exact ofBits_one
  show Ideal.div (broadcastInDim S50000 ![] bcast_S_S50000 (constant (F := Ideal) S_ .f32 0x3F800000#32) (ix1 p)) (D (ix1 p)) = _
  rw [hb]

/-- The reciprocal column at node p is one over the count plus one at p. -/
theorem A2_eq (c : Dev nD) (p : Fin 50000) : A2 m c (ix2 p (0 : Fin 1))
    = Ideal.div 1 (Cert.ReferenceIdeal.ReadP.val_main_v27 (F := Ideal) (m ((c : Thread nD τ).loc main_arg2)) (ix1 p)) := by
  show V m c main_call0_v29 (ix2 p (0 : Fin 1)) = _
  rw [Host.V_v29]
  exact recip_col _ p

/-- The kernel's result is the head of the reference's aggregated node rows. -/
theorem HK_eq (c : Dev nD) : HK m c
    = head (M := 50000) (K := 256) (H := 256) (C := 3)
        (aggDiv (M := 50000) (K := 256)
          (Cert.ReferenceIdeal.ReadP.val_main_v20 (F := Ideal) (m ((c : Thread nD τ).loc main_arg0)) (m ((c : Thread nD τ).loc main_arg1)) (m ((c : Thread nD τ).loc main_arg2)))
          (Cert.ReferenceIdeal.ReadP.val_main_v6 (F := Ideal) (m ((c : Thread nD τ).loc main_arg0)) (m ((c : Thread nD τ).loc main_arg1)))
          (Cert.ReferenceIdeal.ReadP.val_main_v27 (F := Ideal) (m ((c : Thread nD τ).loc main_arg2))))
        (m ((c : Thread nD τ).loc main_arg3)) (asRow (m ((c : Thread nD τ).loc main_arg4)))
        (m ((c : Thread nD τ).loc main_arg5)) (asCol (m ((c : Thread nD τ).loc main_arg6))) := by
  unfold HK
  rw [A3_eq, A4_eq, A5_eq, A6_eq,
    aggMul_eq_aggDiv (A0 m c) (A1 m c) (A2 m c) (Cert.ReferenceIdeal.ReadP.val_main_v27 (F := Ideal) (m ((c : Thread nD τ).loc main_arg2)))
      (A2_eq m c) (Cert.ReferenceIdeal.RefValue.cnt_ne_zero _)]
  show head (aggDiv (V m c main_call0_v20) (V m c main_call0_v10) _) _ _ _ _ = _
  rw [Host.V_v20, Host.V_v10]

end Cert.KernelIdeal.Run

end
-- ==== Proof.lean ====
/-
  The certificate of a graph-convolution classifier: sampled node rows are gathered, their neighbours' rows summed by
  an accumulating scatter, the sums (with the node's own row) averaged over the neighbour count plus one, passed through
  one linear layer and a linear classifier, and normalised by a row-wise log-softmax.

  The kernel does the gathers and scatters on the host exactly as the reference does, and fuses the rest into one
  pallas_call over blocks of 2048 node rows: it multiplies by the reciprocal of the count plus one where the
  reference divides, computes the class scores transposed (classes by nodes) and transposes the result on the host.
  At the extended reals the two agree entry by entry: the count plus one is a sum of ones plus one, never zero, so
  x · (1 · d⁻¹) = x · d⁻¹; a change of float format is the identity; the second product differs by commutativity; and
  every step is local to a node's row, so the rows past the arrays' end that the last block carries (25 · 2048 > 50000)
  touch only result columns that are never written back.

  The frames: the word-level kernel's with its result window unnamed (FrameBits), the idealized kernel's from its run
  with every array named (KerRun, KerFinal), the reference's from its run read back (RefRun).
  The value: the kernel's result is the head of the aggregated node rows (KerPayload, KerFlush, KerFinal), the
  reference's result is the same function of the same stages (RefValue).
-/
import proofs.«408551_j67293547593882_3_alg».proof.Defs
import proofs.«408551_j67293547593882_3_alg».proof.Proof.Gen.Kernel
import proofs.«408551_j67293547593882_3_alg».proof.Proof.Gen.KernelIdeal
import proofs.«408551_j67293547593882_3_alg».proof.Proof.Gen.ReferenceIdeal
import proofs.«408551_j67293547593882_3_alg».proof.Proof.Gen.Pre_finite_inputs
import proofs.«408551_j67293547593882_3_alg».proof.Proof.FrameBits
import proofs.«408551_j67293547593882_3_alg».proof.Proof.KerFinal
import proofs.«408551_j67293547593882_3_alg».proof.Proof.RefValue
import Idealize.ShloMosaic.Adequacy
import Idealize.ShloMosaic.Init

set_option maxRecDepth 16384

noncomputable section

namespace Cert.Proof

open Idealize.ShloMosaic Idealize.SL.Sem

theorem frame_k : @Cert.frame_Kernel Cert.Kernel.Gen.facts Cert.Pre_finite_inputs.Gen.facts :=
  fun m ρ _ => Cert.Kernel.FrameBits.frame (F := Bits) m ρ

theorem frame_ki : @Cert.frame_KernelIdeal Cert.KernelIdeal.Gen.facts Cert.Pre_finite_inputs.Gen.facts :=
  fun m ρ _ => Cert.KernelIdeal.Run.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.ValueP.run (F := Ideal) m ρ)

/-- Both programs end with the head of the aggregated node rows of arguments that agree. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Run.HK m c, Cert.KernelIdeal.Run.value_run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6⟩ := hagree c
  rw [Cert.ReferenceIdeal.ReadP.val_main_v40_eq, Cert.ReferenceIdeal.RefValue.ref_eq, h0, h1, h2, h3, h4, h5, h6]
  exact (Cert.KernelIdeal.Run.HK_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
